-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128x512x8 : Shape := ⟨3, ![128, 512, 8]⟩
abbrev S4905x300 : Shape := ⟨2, ![4905, 300]⟩
abbrev S24049217x1 : Shape := ⟨2, ![24049217, 1]⟩
abbrev S4905x1 : Shape := ⟨2, ![4905, 1]⟩
abbrev S14x300 : Shape := ⟨2, ![14, 300]⟩
abbrev S14 : Shape := ⟨1, ![14]⟩
abbrev S_ : Shape := ⟨0, ![]⟩

class Facts : Prop where
  bcast_S_S4905x300 : S_.BroadcastsInDim S4905x300 (![] : Fin 0 → Fin S4905x300.rank)
  reducesTo_S4905x300_S_d0_1 : S4905x300.ReducesTo [0, 1] S_
  h_S_ : 0 < S_.numel
  bcast_S_S24049217x1 : S_.BroadcastsInDim S24049217x1 (![] : Fin 0 → Fin S24049217x1.rank)
  reducesTo_S24049217x1_S_d0_1 : S24049217x1.ReducesTo [0, 1] S_
  bcast_S_S4905x1 : S_.BroadcastsInDim S4905x1 (![] : Fin 0 → Fin S4905x1.rank)
  reducesTo_S4905x1_S_d0_1 : S4905x1.ReducesTo [0, 1] S_
  bcast_S_S14x300 : S_.BroadcastsInDim S14x300 (![] : Fin 0 → Fin S14x300.rank)
  reducesTo_S14x300_S_d0_1 : S14x300.ReducesTo [0, 1] S_
  bcast_S_S14 : S_.BroadcastsInDim S14 (![] : Fin 0 → Fin S14.rank)
  reducesTo_S14_S_d0 : S14.ReducesTo [0] S_

variable [Facts]

def fn_part1 {F : FTy → Type} [FloatOps F] (main_arg7 : FVec F S14 .f32) (main_v13 : IVec S_ 1) (main_v16 : IVec S14x300 1) : IVec S_ 1 :=
  let main_c_5 : IVec S_ 1 := constantI S_ 1 1#1
  let main_v17 : IVec S_ 1 := (fun x v => Host.reduce IntOp.andi x v reducesTo_S14x300_S_d0_1 h_S_) main_v16 main_c_5
  let main_v18 : IVec S_ 1 := andi main_v13 main_v17
  let main_v19 : FVec F S14 .f32 := Host.absf main_arg7
  let main_cst_6 : FVec F S_ .f32 := constant S_ .f32 0x7F800000#32
  let main_v20 : FVec F S14 .f32 := broadcastInDim S14 ![] bcast_S_S14 main_cst_6
  let main_v21 : IVec S14 1 := cmpf .olt main_v19 main_v20
  let main_c_7 : IVec S_ 1 := constantI S_ 1 1#1
  let main_v22 : IVec S_ 1 := (fun x v => Host.reduce IntOp.andi x v reducesTo_S14_S_d0 h_S_) main_v21 main_c_7
  let main_v23 : IVec S_ 1 := andi main_v18 main_v22
  main_v23

def fn {F : FTy → Type} [FloatOps F] (main_arg0 : IVec S128x512 32) (main_arg1 : IVec S128x512x8 32) (main_arg2 : IVec S128x512x8 32) (main_arg3 : FVec F S4905x300 .f32) (main_arg4 : FVec F S24049217x1 .f32) (main_arg5 : FVec F S4905x1 .f32) (main_arg6 : FVec F S14x300 .f32) (main_arg7 : FVec F S14 .f32) : IVec S_ 1 :=
  let main_v0 : FVec F S4905x300 .f32 := Host.absf main_arg3
  let main_cst : FVec F S_ .f32 := constant S_ .f32 0x7F800000#32
  let main_v1 : FVec F S4905x300 .f32 := broadcastInDim S4905x300 ![] bcast_S_S4905x300 main_cst
  let main_v2 : IVec S4905x300 1 := cmpf .olt main_v0 main_v1
  let main_c : IVec S_ 1 := constantI S_ 1 1#1
  let main_v3 : IVec S_ 1 := (fun x v => Host.reduce IntOp.andi x v reducesTo_S4905x300_S_d0_1 h_S_) main_v2 main_c
  let main_v4 : FVec F S24049217x1 .f32 := Host.absf main_arg4
  let main_cst_0 : FVec F S_ .f32 := constant S_ .f32 0x7F800000#32
  let main_v5 : FVec F S24049217x1 .f32 := broadcastInDim S24049217x1 ![] bcast_S_S24049217x1 main_cst_0
  let main_v6 : IVec S24049217x1 1 := cmpf .olt main_v4 main_v5
  let main_c_1 : IVec S_ 1 := constantI S_ 1 1#1
  let main_v7 : IVec S_ 1 := (fun x v => Host.reduce IntOp.andi x v reducesTo_S24049217x1_S_d0_1 h_S_) main_v6 main_c_1
  let main_v8 : IVec S_ 1 := andi main_v3 main_v7
  let main_v9 : FVec F S4905x1 .f32 := Host.absf main_arg5
  let main_cst_2 : FVec F S_ .f32 := constant S_ .f32 0x7F800000#32
  let main_v10 : FVec F S4905x1 .f32 := broadcastInDim S4905x1 ![] bcast_S_S4905x1 main_cst_2
  let main_v11 : IVec S4905x1 1 := cmpf .olt main_v9 main_v10
  let main_c_3 : IVec S_ 1 := constantI S_ 1 1#1
  let main_v12 : IVec S_ 1 := (fun x v => Host.reduce IntOp.andi x v reducesTo_S4905x1_S_d0_1 h_S_) main_v11 main_c_3
  let main_v13 : IVec S_ 1 := andi main_v8 main_v12
  let main_v14 : FVec F S14x300 .f32 := Host.absf main_arg6
  let main_cst_4 : FVec F S_ .f32 := constant S_ .f32 0x7F800000#32
  let main_v15 : FVec F S14x300 .f32 := broadcastInDim S14x300 ![] bcast_S_S14x300 main_cst_4
  let main_v16 : IVec S14x300 1 := cmpf .olt main_v14 main_v15
  fn_part1 (F := F) main_arg7 main_v13 main_v16
-- ==== Kernel.lean ====
abbrev S128x512 : Shape := ⟨2, ![128, 512]⟩
abbrev S128x512x8 : Shape := ⟨3, ![128, 512, 8]⟩
abbrev S4905x300 : Shape := ⟨2, ![4905, 300]⟩
abbrev S24049217x1 : Shape := ⟨2, ![24049217, 1]⟩
abbrev S4905x1 : Shape := ⟨2, ![4905, 1]⟩
abbrev S14x300 : Shape := ⟨2, ![14, 300]⟩
abbrev S14 : Shape := ⟨1, ![14]⟩
abbrev S_ : Shape := ⟨0, ![]⟩
abbrev S128x512x1 : Shape := ⟨3, ![128, 512, 1]⟩
abbrev S128x512x300 : Shape := ⟨3, ![128, 512, 300]⟩
abbrev S128x512x8x1 : Shape := ⟨4, ![128, 512, 8, 1]⟩
abbrev S128x512x8x300 : Shape := ⟨4, ![128, 512, 8, 300]⟩
abbrev S128x14 : Shape := ⟨2, ![128, 14]⟩
abbrev S32x32x8x300 : Shape := ⟨4, ![32, 32, 8, 300]⟩
abbrev S32x32x8 : Shape := ⟨3, ![32, 32, 8]⟩
abbrev S32x32x300 : Shape := ⟨3, ![32, 32, 300]⟩
abbrev S32x32x1 : Shape := ⟨3, ![32, 32, 1]⟩
abbrev S32x14 : Shape := ⟨2, ![32, 14]⟩
abbrev S32x300 : Shape := ⟨2, ![32, 300]⟩
abbrev S32x32x8x1 : Shape := ⟨4, ![32, 32, 8, 1]⟩
abbrev S300x14 : Shape := ⟨2, ![300, 14]⟩
abbrev S1x14 : Shape := ⟨2, ![1, 14]⟩
abbrev S32 : Shape := ⟨1, ![32]⟩
abbrev S32x1 : Shape := ⟨2, ![32, 1]⟩

abbrev nBuf : Space → Nat
  | .hbm => 46
  | .vmem => 13
  | .smem => 0
  | _ => 0

abbrev bufTy : (tb : Table) → Fin (tcTables nBuf tb) → BufTy
  | .hbm, ⟨0, _⟩ => ⟨S128x512, .i32⟩
  | .hbm, ⟨1, _⟩ => ⟨S128x512x8, .i32⟩
  | .hbm, ⟨2, _⟩ => ⟨S128x512x8, .i32⟩
  | .hbm, ⟨3, _⟩ => ⟨S4905x300, .f32⟩
  | .hbm, ⟨4, _⟩ => ⟨S24049217x1, .f32⟩
  | .hbm, ⟨5, _⟩ => ⟨S4905x1, .f32⟩
  | .hbm, ⟨6, _⟩ => ⟨S14x300, .f32⟩
  | .hbm, ⟨7, _⟩ => ⟨S14, .f32⟩
  | .hbm, ⟨8, _⟩ => ⟨S_, .i32⟩
  | .hbm, ⟨9, _⟩ => ⟨S128x512, .i32⟩
  | .hbm, ⟨10, _⟩ => ⟨S128x512, .i1⟩
  | .hbm, ⟨11, _⟩ => ⟨S_, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S128x512x1, .i32⟩
  | .hbm, ⟨16, _⟩ => ⟨S128x512x300, .f32⟩
  | .hbm, ⟨17, _⟩ => ⟨S_, .i32⟩
  | .hbm, ⟨18, _⟩ => ⟨S128x512x8, .i32⟩
  | .hbm, ⟨19, _⟩ => ⟨S128x512x8, .i1⟩
  | .hbm, ⟨20, _⟩ => ⟨S_, .i32⟩
  | .hbm, ⟨21, _⟩ => ⟨S128x512x8, .i32⟩
  | .hbm, ⟨22, _⟩ => ⟨S128x512x8, .i32⟩
  | .hbm, ⟨23, _⟩ => ⟨S128x512x8, .i32⟩
  | .hbm, ⟨24, _⟩ => ⟨S128x512x8x1, .i32⟩
  | .hbm, ⟨25, _⟩ => ⟨S128x512x8x300, .f32⟩
  | .hbm, ⟨26, _⟩ => ⟨S_, .i32⟩
  | .hbm, ⟨27, _⟩ => ⟨S128x512x8, .i32⟩
  | .hbm, ⟨28, _⟩ => ⟨S128x512x8, .i1⟩
  | .hbm, ⟨29, _⟩ => ⟨S_, .i32⟩
  | .hbm, ⟨30, _⟩ => ⟨S128x512x8, .i32⟩
  | .hbm, ⟨31, _⟩ => ⟨S128x512x8, .i32⟩
  | .hbm, ⟨32, _⟩ => ⟨S128x512x8, .i32⟩
  | .hbm, ⟨33, _⟩ => ⟨S128x512x8x1, .i32⟩
  | .hbm, ⟨34, _⟩ => ⟨S128x512x8x1, .f32⟩
  | .hbm, ⟨35, _⟩ => ⟨S128x512x8, .f32⟩
  | .hbm, ⟨36, _⟩ => ⟨S_, .i32⟩
  | .hbm, ⟨37, _⟩ => ⟨S128x512, .i32⟩
  | .hbm, ⟨38, _⟩ => ⟨S128x512, .i1⟩
  | .hbm, ⟨39, _⟩ => ⟨S_, .i32⟩
  | .hbm, ⟨40, _⟩ => ⟨S128x512, .i32⟩
  | .hbm, ⟨41, _⟩ => ⟨S128x512, .i32⟩
  | .hbm, ⟨42, _⟩ => ⟨S128x512, .i32⟩
  | .hbm, ⟨43, _⟩ => ⟨S128x512x1, .i32⟩
  | .hbm, ⟨44, _⟩ => ⟨S128x512x1, .f32⟩
  | .hbm, ⟨45, _⟩ => ⟨S128x14, .f32⟩
  | .local _ .vmem, ⟨0, _⟩ => ⟨S32x32x8x300, .f32⟩
  | .local _ .vmem, ⟨1, _⟩ => ⟨S32x32x8x300, .f32⟩
  | .local _ .vmem, ⟨2, _⟩ => ⟨S32x32x8, .f32⟩
  | .local _ .vmem, ⟨3, _⟩ => ⟨S32x32x8, .f32⟩
  | .local _ .vmem, ⟨4, _⟩ => ⟨S32x32x300, .f32⟩
  | .local _ .vmem, ⟨5, _⟩ => ⟨S32x32x300, .f32⟩
  | .local _ .vmem, ⟨6, _⟩ => ⟨S32x32x1, .f32⟩
  | .local _ .vmem, ⟨7, _⟩ => ⟨S32x32x1, .f32⟩
  | .local _ .vmem, ⟨8, _⟩ => ⟨S14x300, .f32⟩
  | .local _ .vmem, ⟨9, _⟩ => ⟨S14, .f32⟩
  | .local _ .vmem, ⟨10, _⟩ => ⟨S32x14, .f32⟩
  | .local _ .vmem, ⟨11, _⟩ => ⟨S32x14, .f32⟩
  | .local _ .vmem, ⟨12, _⟩ => ⟨S32x300, .f32⟩
  | _, _ => ⟨S128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_19 : BitVec 32 := 0#32
  let v30 : BitVec 1 := Scalar.cmpi .ne v29 c0_i32_19
  v30

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32x8x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S14x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S14 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S_S128x512x8 : S_.BroadcastsInDim S128x512x8 (![] : Fin 0 → Fin S128x512x8.rank)
  bcast_S128x512x8_S128x512x8x1_0_1_2 : S128x512x8.BroadcastsInDim S128x512x8x1 (![0, 1, 2] : Fin 3 → Fin S128x512x8x1.rank)
  shapeCasts_S128x512x8x1_S128x512x8 : S128x512x8x1.ShapeCasts S128x512x8
  inb_S32x300_S32x300_0_0 : ∀ a, (![0, 0] : Fin 2 → Nat) a + S32x300.size a ≤ S32x300.size a
  h_S32x300 : 0 < S32x300.numel
  shapeCasts_S32x300_S32x300 : S32x300.ShapeCasts S32x300
  inb_S32x32x8x300_S32x32x8x300_0_0_0_0 : ∀ a, (![0, 0, 0, 0] : Fin 4 → Nat) a + S32x32x8x300.size a ≤ S32x32x8x300.size a
  h_S32x32x8x300 : 0 < S32x32x8x300.numel
  shapeCasts_S32x32x8x300_S32x32x8x300 : S32x32x8x300.ShapeCasts S32x32x8x300
  inb_S32x32x8_S32x32x8_0_0_0 : ∀ a, (![0, 0, 0] : Fin 3 → Nat) a + S32x32x8.size a ≤ S32x32x8.size a
  h_S32x32x8 : 0 < S32x32x8.numel
  shapeCasts_S32x32x8_S32x32x8 : S32x32x8.ShapeCasts S32x32x8
  inb_S32x32x300_S32x32x300_0_0_0 : ∀ a, (![0, 0, 0] : Fin 3 → Nat) a + S32x32x300.size a ≤ S32x32x300.size a
  h_S32x32x300 : 0 < S32x32x300.numel
  shapeCasts_S32x32x300_S32x32x300 : S32x32x300.ShapeCasts S32x32x300
  inb_S32x32x1_S32x32x1_0_0_0 : ∀ a, (![0, 0, 0] : Fin 3 → Nat) a + S32x32x1.size a ≤ S32x32x1.size a
  h_S32x32x1 : 0 < S32x32x1.numel
  shapeCasts_S32x32x1_S32x32x1 : S32x32x1.ShapeCasts S32x32x1
  shapeCasts_S32x32x8_S32x32x8x1 : S32x32x8.ShapeCasts S32x32x8x1
  broadcasts_S32x32x8x1_S32x32x8x300 : S32x32x8x1.Broadcasts S32x32x8x300
  reduces_S32x32x8x300_S32x32x300 : S32x32x8x300.Reduces [2] S32x32x300
  broadcasts_S32x32x1_S32x32x300 : S32x32x1.Broadcasts S32x32x300
  reduces_S32x32x300_S32x300 : S32x32x300.Reduces [1] S32x300
  inb_S14x300_S14x300_0_0 : ∀ a, (![0, 0] : Fin 2 → Nat) a + S14x300.size a ≤ S14x300.size a
  h_S14x300 : 0 < S14x300.numel
  transposes_S14x300_p1_0_S300x14 : S14x300.Transposes [1, 0] S300x14
  inb_S14_S14_0 : ∀ a, (![0] : Fin 1 → Nat) a + S14.size a ≤ S14.size a
  h_S14 : 0 < S14.numel
  shapeCasts_S14_S1x14 : S14.ShapeCasts S1x14
  broadcasts_S1x14_S32x14 : S1x14.Broadcasts S32x14
  reduces_S32x14_S32 : S32x14.Reduces [1] S32
  shapeCasts_S32_S32x1 : S32.ShapeCasts S32x1
  broadcasts_S32x1_S32x14 : S32x1.Broadcasts S32x14
  inb_S32x14_S32x14_0_0 : ∀ a, (![0, 0] : Fin 2 → Nat) a + S32x14.size a ≤ S32x14.size a
  h_S32x14 : 0 < S32x14.numel
  gather_S4905x300_S128x512x1_S128x512x300_2_0_n_n_0_2_1300_wf : GatherDims.WF S4905x300 S128x512x1 S128x512x300 [2] [0] [] [0] [] 2 ![1, 300]
  gather_S4905x300_S128x512x8x1_S128x512x8x300_3_0_n_n_0_3_1300_wf : GatherDims.WF S4905x300 S128x512x8x1 S128x512x8x300 [3] [0] [] [0] [] 3 ![1, 300]
  gather_S24049217x1_S128x512x8x1_S128x512x8x1_3_0_n_n_0_3_11_wf : GatherDims.WF S24049217x1 S128x512x8x1 S128x512x8x1 [3] [0] [] [0] [] 3 ![1, 1]
  gather_S4905x1_S128x512x1_S128x512x1_2_0_n_n_0_2_11_wf : GatherDims.WF S4905x1 S128x512x1 S128x512x1 [2] [0] [] [0] [] 2 ![1, 1]
  dot_S32x300_S300x14_S32x14_1_0_0_1_n_n_wf : DotDims.WF S32x300 S300x14 S32x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x8x300.size a ≤ S128x512x8x300.size a
  hwx0_0 : ∀ i : grid0.Coords, EltTy.bits .f32 = 32 ∨ (Rect.block (s := S128x512x8x300) S32x32x8x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x8.size a ≤ S128x512x8.size a
  hwx0_1 : ∀ i : grid0.Coords, EltTy.bits .f32 = 32 ∨ (Rect.block (s := S128x512x8) S32x32x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x300.size a ≤ S128x512x300.size a
  hwx0_2 : ∀ i : grid0.Coords, EltTy.bits .f32 = 32 ∨ (Rect.block (s := S128x512x300) S32x32x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32x1.size a ≤ S128x512x1.size a
  hwx0_3 : ∀ i : grid0.Coords, EltTy.bits .f32 = 32 ∨ (Rect.block (s := S128x512x1) S32x32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S14x300.size a ≤ S14x300.size a
  hwx0_4 : ∀ i : grid0.Coords, EltTy.bits .f32 = 32 ∨ (Rect.block (s := S14x300) S14x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S14.size a ≤ S14.size a
  hwx0_5 : ∀ i : grid0.Coords, EltTy.bits .f32 = 32 ∨ (Rect.block (s := S14) S14.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x14.size a ≤ S128x14.size a
  hwx0_6 : ∀ i : grid0.Coords, EltTy.bits .f32 = 32 ∨ (Rect.block (s := S128x14) S32x14.size (cc0_transform_6 i) (hinb0_6 i)).WholeWords (EltTy.packing .f32)

variable [Facts₀]

def gather_S4905x300_S128x512x1_S128x512x300_2_0_n_n_0_2_1300 : GatherDims S4905x300 S128x512x1 S128x512x300 where
  offsetDims := [2]
  collapsedSliceDims := [0]
  operandBatchingDims := []
  startIndicesBatchingDims := []
  startIndexMap := [0]
  indexVectorDim := 2
  sliceSizes := ![1, 300]
  wf := gather_S4905x300_S128x512x1_S128x512x300_2_0_n_n_0_2_1300_wf
def gather_S4905x300_S128x512x8x1_S128x512x8x300_3_0_n_n_0_3_1300 : GatherDims S4905x300 S128x512x8x1 S128x512x8x300 where
  offsetDims := [3]
  collapsedSliceDims := [0]
  operandBatchingDims := []
  startIndicesBatchingDims := []
  startIndexMap := [0]
  indexVectorDim := 3
  sliceSizes := ![1, 300]
  wf := gather_S4905x300_S128x512x8x1_S128x512x8x300_3_0_n_n_0_3_1300_wf
def gather_S24049217x1_S128x512x8x1_S128x512x8x1_3_0_n_n_0_3_11 : GatherDims S24049217x1 S128x512x8x1 S128x512x8x1 where
  offsetDims := [3]
  collapsedSliceDims := [0]
  operandBatchingDims := []
  startIndicesBatchingDims := []
  startIndexMap := [0]
  indexVectorDim := 3
  sliceSizes := ![1, 1]
  wf := gather_S24049217x1_S128x512x8x1_S128x512x8x1_3_0_n_n_0_3_11_wf
def gather_S4905x1_S128x512x1_S128x512x1_2_0_n_n_0_2_11 : GatherDims S4905x1 S128x512x1 S128x512x1 where
  offsetDims := [2]
  collapsedSliceDims := [0]
  operandBatchingDims := []
  startIndicesBatchingDims := []
  startIndexMap := [0]
  indexVectorDim := 2
  sliceSizes := ![1, 1]
  wf := gather_S4905x1_S128x512x1_S128x512x1_2_0_n_n_0_2_11_wf
def dot_S32x300_S300x14_S32x14_1_0_0_1_n_n : DotDims S32x300 S300x14 S32x14 where
  lhsContracting := [1]
  rhsContracting := [0]
  lhsNonContracting := [0]
  rhsNonContracting := [1]
  lhsBatch := []
  rhsBatch := []
  wf := dot_S32x300_S300x14_S32x14_1_0_0_1_n_n_wf

abbrev win0_0 : Pipeline.Window sig grid0 :=
  Pipeline.Window.ofSpec (Memref.whole main_v13) S32x32x8x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S32x32x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x32x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S32x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S14x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S14.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S32x14.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S128x512 : Shape := ⟨2, ![128, 512]⟩
abbrev S128x512x8 : Shape := ⟨3, ![128, 512, 8]⟩
abbrev S4905x300 : Shape := ⟨2, ![4905, 300]⟩
abbrev S24049217x1 : Shape := ⟨2, ![24049217, 1]⟩
abbrev S4905x1 : Shape := ⟨2, ![4905, 1]⟩
abbrev S14x300 : Shape := ⟨2, ![14, 300]⟩
abbrev S14 : Shape := ⟨1, ![14]⟩
abbrev S_ : Shape := ⟨0, ![]⟩
abbrev S128x512x1 : Shape := ⟨3, ![128, 512, 1]⟩
abbrev S128x512x300 : Shape := ⟨3, ![128, 512, 300]⟩
abbrev S128x512x8x1 : Shape := ⟨4, ![128, 512, 8, 1]⟩
abbrev S128x512x8x300 : Shape := ⟨4, ![128, 512, 8, 300]⟩
abbrev S128x300 : Shape := ⟨2, ![128, 300]⟩
abbrev S300x14 : Shape := ⟨2, ![300, 14]⟩
abbrev S128x14 : Shape := ⟨2, ![128, 14]⟩
abbrev S1x14 : Shape := ⟨2, ![1, 14]⟩
abbrev S128 : Shape := ⟨1, ![128]⟩
abbrev S128x1 : Shape := ⟨2, ![128, 1]⟩

abbrev nBuf : Space → Nat
  | .hbm => 80
  | .vmem => 0
  | .smem => 0
  | _ => 0

abbrev bufTy : (tb : Table) → Fin (tcTables nBuf tb) → BufTy
  | .hbm, ⟨0, _⟩ => ⟨S128x512, .i32⟩
  | .hbm, ⟨1, _⟩ => ⟨S128x512x8, .i32⟩
  | .hbm, ⟨2, _⟩ => ⟨S128x512x8, .i32⟩
  | .hbm, ⟨3, _⟩ => ⟨S4905x300, .f32⟩
  | .hbm, ⟨4, _⟩ => ⟨S24049217x1, .f32⟩
  | .hbm, ⟨5, _⟩ => ⟨S4905x1, .f32⟩
  | .hbm, ⟨6, _⟩ => ⟨S14x300, .f32⟩
  | .hbm, ⟨7, _⟩ => ⟨S14, .f32⟩
  | .hbm, ⟨8, _⟩ => ⟨S_, .i32⟩
  | .hbm, ⟨9, _⟩ => ⟨S128x512, .i32⟩
  | .hbm, ⟨10, _⟩ => ⟨S128x512, .i1⟩
  | .hbm, ⟨11, _⟩ => ⟨S_, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S128x512x1, .i32⟩
  | .hbm, ⟨16, _⟩ => ⟨S128x512x300, .f32⟩
  | .hbm, ⟨17, _⟩ => ⟨S_, .i32⟩
  | .hbm, ⟨18, _⟩ => ⟨S128x512x8, .i32⟩
  | .hbm, ⟨19, _⟩ => ⟨S128x512x8, .i1⟩
  | .hbm, ⟨20, _⟩ => ⟨S_, .i32⟩
  | .hbm, ⟨21, _⟩ => ⟨S128x512x8, .i32⟩
  | .hbm, ⟨22, _⟩ => ⟨S128x512x8, .i32⟩
  | .hbm, ⟨23, _⟩ => ⟨S128x512x8, .i32⟩
  | .hbm, ⟨24, _⟩ => ⟨S128x512x8x1, .i32⟩
  | .hbm, ⟨25, _⟩ => ⟨S128x512x8x300, .f32⟩
  | .hbm, ⟨26, _⟩ => ⟨S_, .i32⟩
  | .hbm, ⟨27, _⟩ => ⟨S128x512x8, .i32⟩
  | .hbm, ⟨28, _⟩ => ⟨S128x512x8, .i1⟩
  | .hbm, ⟨29, _⟩ => ⟨S_, .i32⟩
  | .hbm, ⟨30, _⟩ => ⟨S128x512x8, .i32⟩
  | .hbm, ⟨31, _⟩ => ⟨S128x512x8, .i32⟩
  | .hbm, ⟨32, _⟩ => ⟨S128x512x8, .i32⟩
  | .hbm, ⟨33, _⟩ => ⟨S128x512x8x1, .i32⟩
  | .hbm, ⟨34, _⟩ => ⟨S128x512x8x1, .f32⟩
  | .hbm, ⟨35, _⟩ => ⟨S128x512x8x300, .f32⟩
  | .hbm, ⟨36, _⟩ => ⟨S128x512x8x300, .f32⟩
  | .hbm, ⟨37, _⟩ => ⟨S_, .f32⟩
  | .hbm, ⟨38, _⟩ => ⟨S128x512x300, .f32⟩
  | .hbm, ⟨39, _⟩ => ⟨S_, .i32⟩
  | .hbm, ⟨40, _⟩ => ⟨S128x512, .i32⟩
  | .hbm, ⟨41, _⟩ => ⟨S128x512, .i1⟩
  | .hbm, ⟨42, _⟩ => ⟨S_, .i32⟩
  | .hbm, ⟨43, _⟩ => ⟨S128x512, .i32⟩
  | .hbm, ⟨44, _⟩ => ⟨S128x512, .i32⟩
  | .hbm, ⟨45, _⟩ => ⟨S128x512, .i32⟩
  | .hbm, ⟨46, _⟩ => ⟨S128x512x1, .i32⟩
  | .hbm, ⟨47, _⟩ => ⟨S128x512x1, .f32⟩
  | .hbm, ⟨48, _⟩ => ⟨S_, .f32⟩
  | .hbm, ⟨49, _⟩ => ⟨S128x512x1, .f32⟩
  | .hbm, ⟨50, _⟩ => ⟨S128x512x1, .f32⟩
  | .hbm, ⟨51, _⟩ => ⟨S128x512x300, .f32⟩
  | .hbm, ⟨52, _⟩ => ⟨S128x512x300, .f32⟩
  | .hbm, ⟨53, _⟩ => ⟨S128x512x300, .f32⟩
  | .hbm, ⟨54, _⟩ => ⟨S128x512x300, .f32⟩
  | .hbm, ⟨55, _⟩ => ⟨S128x512x300, .f32⟩
  | .hbm, ⟨56, _⟩ => ⟨S_, .f32⟩
  | .hbm, ⟨57, _⟩ => ⟨S128x300, .f32⟩
  | .hbm, ⟨58, _⟩ => ⟨S300x14, .f32⟩
  | .hbm, ⟨59, _⟩ => ⟨S128x14, .f32⟩
  | .hbm, ⟨60, _⟩ => ⟨S1x14, .f32⟩
  | .hbm, ⟨61, _⟩ => ⟨S128x14, .f32⟩
  | .hbm, ⟨62, _⟩ => ⟨S128x14, .f32⟩
  | .hbm, ⟨63, _⟩ => ⟨S_, .f32⟩
  | .hbm, ⟨64, _⟩ => ⟨S128x14, .f32⟩
  | .hbm, ⟨65, _⟩ => ⟨S128x14, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128x1, .f32⟩
  | .hbm, ⟨72, _⟩ => ⟨S128x14, .f32⟩
  | .hbm, ⟨73, _⟩ => ⟨S128x14, .f32⟩
  | .hbm, ⟨74, _⟩ => ⟨S128x14, .f32⟩
  | .hbm, ⟨75, _⟩ => ⟨S_, .f32⟩
  | .hbm, ⟨76, _⟩ => ⟨S128, .f32⟩
  | .hbm, ⟨77, _⟩ => ⟨S128x1, .f32⟩
  | .hbm, ⟨78, _⟩ => ⟨S128x14, .f32⟩
  | .hbm, ⟨79, _⟩ => ⟨S128x14, .f32⟩
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S_S128x512x8 : S_.BroadcastsInDim S128x512x8 (![] : Fin 0 → Fin S128x512x8.rank)
  bcast_S128x512x8_S128x512x8x1_0_1_2 : S128x512x8.BroadcastsInDim S128x512x8x1 (![0, 1, 2] : Fin 3 → Fin S128x512x8x1.rank)
  bcast_S128x512x8x1_S128x512x8x300_0_1_2_3 : S128x512x8x1.BroadcastsInDim S128x512x8x300 (![0, 1, 2, 3] : Fin 4 → Fin S128x512x8x300.rank)
  reducesTo_S128x512x8x300_S128x512x300_d2 : S128x512x8x300.ReducesTo [2] S128x512x300
  h_S_ : 0 < S_.numel
  bcast_S_S128x512x1 : S_.BroadcastsInDim S128x512x1 (![] : Fin 0 → Fin S128x512x1.rank)
  bcast_S128x512x1_S128x512x300_0_1_2 : S128x512x1.BroadcastsInDim S128x512x300 (![0, 1, 2] : Fin 3 → Fin S128x512x300.rank)
  reducesTo_S128x512x300_S128x300_d1 : S128x512x300.ReducesTo [1] S128x300
  transposes_S14x300_S300x14_1_0 : S14x300.Transposes [1, 0] S300x14
  bcast_S14_S1x14_1 : S14.BroadcastsInDim S1x14 (![1] : Fin 1 → Fin S1x14.rank)
  bcast_S1x14_S128x14_0_1 : S1x14.BroadcastsInDim S128x14 (![0, 1] : Fin 2 → Fin S128x14.rank)
  bcast_S_S128x14 : S_.BroadcastsInDim S128x14 (![] : Fin 0 → Fin S128x14.rank)
  reducesTo_S128x14_S128_d1 : S128x14.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x14_0_1 : S128x1.BroadcastsInDim S128x14 (![0, 1] : Fin 2 → Fin S128x14.rank)
  gather_S4905x300_S128x512x1_S128x512x300_2_0_n_n_0_2_1300_wf : GatherDims.WF S4905x300 S128x512x1 S128x512x300 [2] [0] [] [0] [] 2 ![1, 300]
  gather_S4905x300_S128x512x8x1_S128x512x8x300_3_0_n_n_0_3_1300_wf : GatherDims.WF S4905x300 S128x512x8x1 S128x512x8x300 [3] [0] [] [0] [] 3 ![1, 300]
  gather_S24049217x1_S128x512x8x1_S128x512x8x1_3_0_n_n_0_3_11_wf : GatherDims.WF S24049217x1 S128x512x8x1 S128x512x8x1 [3] [0] [] [0] [] 3 ![1, 1]
  gather_S4905x1_S128x512x1_S128x512x1_2_0_n_n_0_2_11_wf : GatherDims.WF S4905x1 S128x512x1 S128x512x1 [2] [0] [] [0] [] 2 ![1, 1]
  dot_S128x300_S300x14_S128x14_1_0_0_1_n_n_wf : DotDims.WF S128x300 S300x14 S128x14 [1] [0] [0] [1] [] []

variable [Facts₀]

def gather_S4905x300_S128x512x1_S128x512x300_2_0_n_n_0_2_1300 : GatherDims S4905x300 S128x512x1 S128x512x300 where
  offsetDims := [2]
  collapsedSliceDims := [0]
  operandBatchingDims := []
  startIndicesBatchingDims := []
  startIndexMap := [0]
  indexVectorDim := 2
  sliceSizes := ![1, 300]
  wf := gather_S4905x300_S128x512x1_S128x512x300_2_0_n_n_0_2_1300_wf
def gather_S4905x300_S128x512x8x1_S128x512x8x300_3_0_n_n_0_3_1300 : GatherDims S4905x300 S128x512x8x1 S128x512x8x300 where
  offsetDims := [3]
  collapsedSliceDims := [0]
  operandBatchingDims := []
  startIndicesBatchingDims := []
  startIndexMap := [0]
  indexVectorDim := 3
  sliceSizes := ![1, 300]
  wf := gather_S4905x300_S128x512x8x1_S128x512x8x300_3_0_n_n_0_3_1300_wf
def gather_S24049217x1_S128x512x8x1_S128x512x8x1_3_0_n_n_0_3_11 : GatherDims S24049217x1 S128x512x8x1 S128x512x8x1 where
  offsetDims := [3]
  collapsedSliceDims := [0]
  operandBatchingDims := []
  startIndicesBatchingDims := []
  startIndexMap := [0]
  indexVectorDim := 3
  sliceSizes := ![1, 1]
  wf := gather_S24049217x1_S128x512x8x1_S128x512x8x1_3_0_n_n_0_3_11_wf
def gather_S4905x1_S128x512x1_S128x512x1_2_0_n_n_0_2_11 : GatherDims S4905x1 S128x512x1 S128x512x1 where
  offsetDims := [2]
  collapsedSliceDims := [0]
  operandBatchingDims := []
  startIndicesBatchingDims := []
  startIndexMap := [0]
  indexVectorDim := 2
  sliceSizes := ![1, 1]
  wf := gather_S4905x1_S128x512x1_S128x512x1_2_0_n_n_0_2_11_wf
def dot_S128x300_S300x14_S128x14_1_0_0_1_n_n : DotDims S128x300 S300x14 S128x14 where
  lhsContracting := [1]
  rhsContracting := [0]
  lhsNonContracting := [0]
  rhsNonContracting := [1]
  lhsBatch := []
  rhsBatch := []
  wf := dot_S128x300_S300x14_S128x14_1_0_0_1_n_n_wf

class Facts : Prop extends Facts₀ where

variable [Facts]
-- ==== Proof.Spec.lean ====
/-
  The mathematics of the message-passing layer, stated once over whole arrays of extended reals, away from both programs.

  Inputs: the gathered neighbour embeddings `Ra[b,l,k,d]`, the gathered edge weights `Ea[b,l,k,0]`, the gathered node
  embeddings `Rn[b,l,d]`, the gathered gates `Nn[b,l,0]`, the classifier's weights `W[c,d]` and bias `β[c]`.

  * `msg`  : the gated message of node `(b,l)` at feature `d`:
              `(1 - Nn) · max_k (Ra · Ea) + Nn · Rn`, the maximum folded from `-∞` over the eight neighbours;
  * `pooled`: its sum over the 512 positions of a text;
  * `head` : the classifier on one pooled row: affine map, clamp at zero, then the soft-max over the 14 classes, the
              soft-max written as it is computed — shift by the row's maximum, exponentiate, divide by the row's sum;
  * `out`  : the whole result, `head` of each text's pooled row.

  The sum over positions is also given as a sum over an initial segment of the naturals (`psum`), the form in which a
  tile-by-tile accumulation meets it: thirty-two more positions add thirty-two more terms (`psum_add`), none is zero
  (`psum_zero`), and all 512 is `pooled` (`psum_all`). Only the additive commutative monoid structure of the extended
  reals is used: no term is required to be finite.
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- The float words the two programs share, read once at the ideal instance: one, zero and minus infinity. -/
abbrev one : EReal := Ideal.ofBits .f32 0x3F800000#32
abbrev zero : EReal := Ideal.ofBits .f32 0x00000000#32
abbrev ninf : EReal := Ideal.ofBits .f32 0xFF800000#32

abbrev SRa : Shape := ⟨4, ![128, 512, 8, 300]⟩
abbrev SEa : Shape := ⟨4, ![128, 512, 8, 1]⟩
abbrev SRn : Shape := ⟨3, ![128, 512, 300]⟩
abbrev SNn : Shape := ⟨3, ![128, 512, 1]⟩
abbrev SW : Shape := ⟨2, ![14, 300]⟩
abbrev Sβ : Shape := ⟨1, ![14]⟩
abbrev SOut : Shape := ⟨2, ![128, 14]⟩

/-- The gate-combined message from the values at one node: `g` the gate, `r` the node's own embedding entry, `p k` the
    eight neighbour products. -/
def combine (g r : EReal) (p : Fin 8 → EReal) : EReal :=
  (one - g) * (Finset.univ : Finset (Fin 8)).fold max ninf p + g * r

section
variable (Ra : SRa.Idx → EReal) (Ea : SEa.Idx → EReal) (Rn : SRn.Idx → EReal) (Nn : SNn.Idx → EReal)

/-- The gated message of node `(b, l)` at feature `d`. -/
def msg (b : Fin 128) (l : Fin 512) (d : Fin 300) : EReal :=
  combine (Nn (ix3 b l 0)) (Rn (ix3 b l d)) (fun k => Ra (ix4 b l k d) * Ea (ix4 b l k 0))

/-- The messages of a text summed over its positions. -/
def pooled (b : Fin 128) (d : Fin 300) : EReal := ∑ l : Fin 512, msg Ra Ea Rn Nn b l d

/-- The message at a natural-number position, zero past the text's end. -/
def msgN (b : Fin 128) (d : Fin 300) (l : ℕ) : EReal := if h : l < 512 then msg Ra Ea Rn Nn b ⟨l, h⟩ d else 0

/-- The messages of the first `n` positions, summed. -/
def psum (b : Fin 128) (d : Fin 300) (n : ℕ) : EReal := ∑ l ∈ Finset.range n, msgN Ra Ea Rn Nn b d l

theorem psum_zero (b : Fin 128) (d : Fin 300) : psum Ra Ea Rn Nn b d 0 = 0 := by
  unfold psum; rw [Finset.range_zero, Finset.sum_empty]

/-- Thirty-two more positions add their thirty-two messages. -/
theorem psum_add (b : Fin 128) (d : Fin 300) (n : ℕ) :
    psum Ra Ea Rn Nn b d (n + 32) = psum Ra Ea Rn Nn b d n + ∑ l' : Fin 32, msgN Ra Ea Rn Nn b d (n + l'.val) := by
  unfold psum; rw [Finset.sum_range_add]
  exact congrArg _ (Finset.sum_range fun x => msgN Ra Ea Rn Nn b d (n + x))

/-- All 512 positions: the pooled sum. -/
theorem psum_all (b : Fin 128) (d : Fin 300) : psum Ra Ea Rn Nn b d 512 = pooled Ra Ea Rn Nn b d := by
  unfold psum pooled; rw [Finset.sum_range]
  exact Finset.sum_congr rfl fun l _ => by unfold msgN; rw [dif_pos l.isLt]

end

section
variable (W : SW.Idx → EReal) (β : Sβ.Idx → EReal)

/-- The classifier's clamped affine map on one pooled row. -/
def hidden (row : Fin 300 → EReal) (c : Fin 14) : EReal :=
  max (∑ k : Fin 300, row k * W (ix2 c k) + β (ix1 c)) zero

/-- The shift of a row's soft-max: its maximum, folded from `-∞` (and once more compared with `-∞`). -/
def rowmax (h : Fin 14 → EReal) : EReal := max ninf ((Finset.univ : Finset (Fin 14)).fold max ninf h)

/-- The soft-max over the fourteen classes, as it is computed. -/
def softmax (h : Fin 14 → EReal) (c : Fin 14) : EReal :=
  Ideal.div (Ideal.exp (h c - rowmax h)) (∑ c' : Fin 14, Ideal.exp (h c' - rowmax h))

/-- The classifier on one pooled row. -/
def head (row : Fin 300 → EReal) (c : Fin 14) : EReal := softmax (hidden W β row) c

end

/-- The layer's result: class probabilities of every text. -/
def out (Ra : SRa.Idx → EReal) (Ea : SEa.Idx → EReal) (Rn : SRn.Idx → EReal) (Nn : SNn.Idx → EReal)
    (W : SW.Idx → EReal) (β : Sβ.Idx → EReal) : SOut.Idx → EReal :=
  fun i => head W β (fun k => pooled Ra Ea Rn Nn (i 0) k) (i 1)

end Cert.Gnn

end
-- ==== Proof.Tile.lean ====
/-
  One grid point's arithmetic, read one entry at a time at the ideal instance.

  A point holds a tile of 32 texts by 32 positions. Its message at (text `p`, position `l`, feature `q`) is `combine` of
  the tile's gate, own-embedding entry and the eight neighbour products (`tmsg`). The accumulator update adds to the
  carried entry the tile's 32 messages (`acc_update_apply`); the reset block is zero (`reset_apply`); and the
  classifier step applied to the accumulator is `head` of that text's accumulated row (`classify_apply`).
-/
import proofs.«140302_j2362232013143_1_alg».proof.Proof.Spec
import proofs.«140302_j2362232013143_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gnn.Tile

open Idealize.ShloMosaic Idealize.ShloMosaic.ValueIdx Cert.KernelIdeal Cert.KernelIdeal.Gen

/-- The gated message inside one tile. -/
def tmsg (x0 : Vec Ideal S32x32x8x300 .f32) (x1 : Vec Ideal S32x32x8 .f32) (x2 : Vec Ideal S32x32x300 .f32)
    (x3 : Vec Ideal S32x32x1 .f32) (p l : Fin 32) (q : Fin 300) : EReal :=
  Cert.Gnn.combine (x3 (ix3 p l 0)) (x2 (ix3 p l q)) (fun k => x0 (ix4 p l k q) * x1 (ix3 p l k))

/-! ## Layout operations on a trailing unit axis, read at an index given by coordinates -/

section Layout
variable {α : Type}

/-- An `[a, b, c]` array cast to `[a, b, c, 1]` reads, at `(i, j, k, u)`, the operand at `(i, j, k)`: the trailing unit
    coordinate does not move the row-major position. -/
private theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a]` array cast to the column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
private theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
private theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, d]` reads, at `(i, j, k, l)`, the operand at `(i, j, k, 0)`. -/
private theorem broadcastTo_abc1_abcd_apply {a b c d : ℕ} (v : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

end Layout

/-! ## The four reductions, each along one axis, as a fold or a sum over that axis's coordinate -/

/-- The maximum over the eight neighbours (axis 2 of a `[32, 32, 8, 300]` vector), folded from `-∞`. -/
private theorem max_neighbours_apply (v : FVec Ideal S32x32x8x300 .f32) (h : S32x32x8x300.Reduces [2] S32x32x300)
    (hφ : FKind.Formats .f32) (hacc : (0xFF800000#32 : BitVec 32) = 0xFF800000#32) (p l : Fin 32) (q : Fin 300) :
    multiReduction (F := Ideal) .maximumf [2] S32x32x300 v 0xFF800000#32 h hφ hacc (ix3 p l q)
      = (Finset.univ : Finset (Fin 8)).fold max Cert.Gnn.ninf (fun k => v (ix4 p l k q)) := by
  refine (Ideal.multiReduction_maximumf_single v 0xFF800000#32 h hφ hacc (ix3 p l q)).trans ?_
  show (Finset.univ : Finset (Fin 8)).fold max Cert.Gnn.ninf (fun k : Fin 8 => v (h.lift (ix3 p l q) k)) = _
  refine congrArg ((Finset.univ : Finset (Fin 8)).fold max Cert.Gnn.ninf) (funext fun k => congrArg v (funext fun c => Fin.ext ?_))
  match c with
  | ⟨0, _⟩ => rfl
  | ⟨1, _⟩ => rfl
  | ⟨2, _⟩ => rfl
  | ⟨3, _⟩ => rfl

/-- The sum over a tile's thirty-two positions (axis 1 of a `[32, 32, 300]` vector). -/
private theorem sum_positions_apply (v : FVec Ideal S32x32x300 .f32) (h : S32x32x300.Reduces [1] S32x300)
    (hφ : FKind.Formats .f32) (hacc : (0x00000000#32 : BitVec 32) = 0x00000000#32) (p : Fin 32) (q : Fin 300) :
    multiReduction (F := Ideal) .add [1] S32x300 v 0x00000000#32 h hφ hacc (ix2 p q) = ∑ l : Fin 32, v (ix3 p l q) := by
  refine (Ideal.multiReduction_add_single v 0x00000000#32 h hφ hacc (ix2 p q)).trans ?_
  show ∑ l : Fin 32, v (h.lift (ix2 p q) l) = _
  refine Finset.sum_congr rfl fun l _ => congrArg v (funext fun c => Fin.ext ?_)
  match c with
  | ⟨0, _⟩ => rfl
  | ⟨1, _⟩ => rfl
  | ⟨2, _⟩ => rfl

/-- A row's maximum over the fourteen classes, folded from `-∞`. -/
private theorem max_classes_apply (v : FVec Ideal S32x14 .f32) (h : S32x14.Reduces [1] S32)
    (hφ : FKind.Formats .f32) (hacc : (0xFF800000#32 : BitVec 32) = 0xFF800000#32) (p : Fin 32) :
    multiReduction (F := Ideal) .maximumf [1] S32 v 0xFF800000#32 h hφ hacc (ix1 p)
      = (Finset.univ : Finset (Fin 14)).fold max Cert.Gnn.ninf (fun c => v (ix2 p c)) := by
  refine (Ideal.multiReduction_maximumf_single v 0xFF800000#32 h hφ hacc (ix1 p)).trans ?_
  show (Finset.univ : Finset (Fin 14)).fold max Cert.Gnn.ninf (fun c : Fin 14 => v (h.lift (ix1 p) c)) = _
  refine congrArg ((Finset.univ : Finset (Fin 14)).fold max Cert.Gnn.ninf) (funext fun c => congrArg v (funext fun d => Fin.ext ?_))
  match d with
  | ⟨0, _⟩ => rfl
  | ⟨1, _⟩ => rfl

/-- A row's sum over the fourteen classes. -/
private theorem sum_classes_apply (v : FVec Ideal S32x14 .f32) (h : S32x14.Reduces [1] S32)
    (hφ : FKind.Formats .f32) (hacc : (0x00000000#32 : BitVec 32) = 0x00000000#32) (p : Fin 32) :
    multiReduction (F := Ideal) .add [1] S32 v 0x00000000#32 h hφ hacc (ix1 p) = ∑ c : Fin 14, v (ix2 p c) := by
  refine (Ideal.multiReduction_add_single v 0x00000000#32 h hφ hacc (ix1 p)).trans ?_
  show ∑ c : Fin 14, v (h.lift (ix1 p) c) = _
  refine Finset.sum_congr rfl fun c _ => congrArg v (funext fun d => Fin.ext ?_)
  match d with
  | ⟨0, _⟩ => rfl
  | ⟨1, _⟩ => rfl

/-! ## The classifier's product: a row of the accumulator against a column of the transposed weights -/

/-- The left operand's index: its row is the result's row … -/
private theorem lhsIdx_row (i : S32x14.Idx) (q : dot_S32x300_S300x14_S32x14_1_0_0_1_n_n.contr.Idx) :
    (dot_S32x300_S300x14_S32x14_1_0_0_1_n_n.lhsIdx i q 0).val = (i 0).val := by
  unfold DotDims.lhsIdx
  rw [dif_neg (show ¬(0 : Fin S32x300.rank) ∈ dot_S32x300_S300x14_S32x14_1_0_0_1_n_n.lhsBatch by decide), dif_pos (show (0 : Fin S32x300.rank) ∈ dot_S32x300_S300x14_S32x14_1_0_0_1_n_n.lhsNonContracting by decide)]
  rfl
/-- … and its column the contraction coordinate. -/
private theorem lhsIdx_col (i : S32x14.Idx) (q : dot_S32x300_S300x14_S32x14_1_0_0_1_n_n.contr.Idx) :
    (dot_S32x300_S300x14_S32x14_1_0_0_1_n_n.lhsIdx i q 1).val = (q ⟨0, by decide⟩).val :=
  dot_S32x300_S300x14_S32x14_1_0_0_1_n_n.lhsIdx_val_of_single rfl i q
/-- The right operand's index: its row is the contraction coordinate … -/
private theorem rhsIdx_row (i : S32x14.Idx) (q : dot_S32x300_S300x14_S32x14_1_0_0_1_n_n.contr.Idx) :
    (dot_S32x300_S300x14_S32x14_1_0_0_1_n_n.rhsIdx i q 0).val = (q ⟨0, by decide⟩).val :=
  dot_S32x300_S300x14_S32x14_1_0_0_1_n_n.rhsIdx_val_of_single rfl i q
/-- … and its column the result's column. -/
private theorem rhsIdx_col (i : S32x14.Idx) (q : dot_S32x300_S300x14_S32x14_1_0_0_1_n_n.contr.Idx) :
    (dot_S32x300_S300x14_S32x14_1_0_0_1_n_n.rhsIdx i q 1).val = (i 1).val := by
  unfold DotDims.rhsIdx
  rw [dif_neg (show ¬(1 : Fin S300x14.rank) ∈ dot_S32x300_S300x14_S32x14_1_0_0_1_n_n.rhsBatch by decide), dif_pos (show (1 : Fin S300x14.rank) ∈ dot_S32x300_S300x14_S32x14_1_0_0_1_n_n.rhsNonContracting by decide)]
  rfl

/-- The product into a zero accumulator, at `(p, c)`: the sum over the 300 features of row `p` times column `c`. -/
private theorem matmul_zero_apply (a : FVec Ideal S32x300 .f32) (b : FVec Ideal S300x14 .f32) (p : Fin 32) (c : Fin 14) :
    matmul (F := Ideal) dot_S32x300_S300x14_S32x14_1_0_0_1_n_n none a b (constant (F := Ideal) S32x14 .f32 0x00000000#32) (ix2 p c)
      = ∑ k : Fin 300, a (ix2 p k) * b (ix2 k c) := by
  simp only [matmul]
  rw [Ideal.matmul_constant_zero_apply, ← Equiv.sum_comp (contrEquiv1 dot_S32x300_S300x14_S32x14_1_0_0_1_n_n 300 rfl rfl).symm]
  refine Finset.sum_congr rfl fun k _ => ?_
  have hk := contrEquiv1_symm_val dot_S32x300_S300x14_S32x14_1_0_0_1_n_n 300 rfl rfl k
  have el : dot_S32x300_S300x14_S32x14_1_0_0_1_n_n.lhsIdx (ix2 p c) ((contrEquiv1 dot_S32x300_S300x14_S32x14_1_0_0_1_n_n 300 rfl rfl).symm k) = ix2 p k := funext fun d => Fin.ext (by
    match d with
    | ⟨0, _⟩ => exact lhsIdx_row _ _
    | ⟨1, _⟩ => exact (lhsIdx_col _ _).trans hk)
  have er : dot_S32x300_S300x14_S32x14_1_0_0_1_n_n.rhsIdx (ix2 p c) ((contrEquiv1 dot_S32x300_S300x14_S32x14_1_0_0_1_n_n 300 rfl rfl).symm k) = ix2 k c := funext fun d => Fin.ext (by
    match d with
    | ⟨0, _⟩ => exact (rhsIdx_row _ _).trans hk
    | ⟨1, _⟩ => exact rhsIdx_col _ _)
  rw [el, er]

/-! ## The classifier: the clamped affine map, then the soft-max as it is computed -/

/-- The clamped affine map at `(p, c)`: row `p` of the accumulator against row `c` of the weights, plus the bias, clamped
    at zero. -/
private theorem hidden_apply (acc : FVec Ideal S32x300 .f32) (w : FVec Ideal S14x300 .f32) (β : FVec Ideal S14 .f32)
    (ht : S14x300.Transposes [1, 0] S300x14) (hc : S14.ShapeCasts S1x14) (hb : S1x14.Broadcasts S32x14)
    (p : Fin 32) (c : Fin 14) :
    maximumf
        (addf (matmul (F := Ideal) dot_S32x300_S300x14_S32x14_1_0_0_1_n_n none acc (transpose S300x14 [1, 0] w ht) (constant (F := Ideal) S32x14 .f32 0x00000000#32))
          (broadcastTo S32x14 (shapeCast S1x14 β hc) hb))
        (broadcast S32x14 (FloatOps.ofBits (F := Ideal) .f32 0x00000000#32)) (ix2 p c)
      = Cert.Gnn.hidden w β (fun k => acc (ix2 p k)) c := by
  rw [maximumf_apply, addf_apply, matmul_zero_apply, broadcastTo_1b_ab_apply, shapeCast_a_1a_apply, broadcast_apply]
  have e : ∀ k : Fin 300, transpose S300x14 [1, 0] w ht (ix2 k c) = w (ix2 c k) := fun k => transpose_ix2_apply w ht k c
  simp only [e]
  rfl

/-- The shift of the soft-max at `(p, c)`: the maximum of row `p`, whatever the class `c`. -/
private theorem shift_apply (H : FVec Ideal S32x14 .f32) (hr : S32x14.Reduces [1] S32) (hφ : FKind.Formats .f32)
    (hacc : (0xFF800000#32 : BitVec 32) = 0xFF800000#32) (hc : S32.ShapeCasts S32x1) (hb : S32x1.Broadcasts S32x14)
    (p : Fin 32) (c : Fin 14) :
    broadcastTo S32x14
        (shapeCast S32x1
          (maximumf (broadcast S32 (FloatOps.ofBits (F := Ideal) .f32 0xFF800000#32))
            (multiReduction (F := Ideal) .maximumf [1] S32 H 0xFF800000#32 hr hφ hacc)) hc) hb (ix2 p c)
      = Cert.Gnn.rowmax (fun c' => H (ix2 p c')) := by
  rw [broadcastTo_a1_ab_apply, shapeCast_a_a1_apply, maximumf_apply, broadcast_apply, max_classes_apply]
  rfl

/-- The soft-max's numerator at `(p, c)`: the exponential of the shifted entry. -/
private theorem exp_shifted_apply (H : FVec Ideal S32x14 .f32) (hr : S32x14.Reduces [1] S32) (hφ : FKind.Formats .f32)
    (hacc : (0xFF800000#32 : BitVec 32) = 0xFF800000#32) (hc : S32.ShapeCasts S32x1) (hb : S32x1.Broadcasts S32x14)
    (p : Fin 32) (c : Fin 14) :
    exp (subf H (broadcastTo S32x14
        (shapeCast S32x1
          (maximumf (broadcast S32 (FloatOps.ofBits (F := Ideal) .f32 0xFF800000#32))
            (multiReduction (F := Ideal) .maximumf [1] S32 H 0xFF800000#32 hr hφ hacc)) hc) hb)) (ix2 p c)
      = Ideal.exp (H (ix2 p c) - Cert.Gnn.rowmax (fun c' => H (ix2 p c'))) := by
  refine congrArg (fun m => Ideal.exp (H (ix2 p c) - m)) (shift_apply H hr hφ hacc hc hb p c)

/-- The soft-max at `(p, c)`: the numerator over the row's sum of numerators. -/
private theorem softmax_apply (H : FVec Ideal S32x14 .f32) (hr : S32x14.Reduces [1] S32) (hφ : FKind.Formats .f32)
    (hmax : (0xFF800000#32 : BitVec 32) = 0xFF800000#32) (hsum : (0x00000000#32 : BitVec 32) = 0x00000000#32)
    (hc : S32.ShapeCasts S32x1) (hb : S32x1.Broadcasts S32x14) (p : Fin 32) (c : Fin 14) :
    divf
        (exp (subf H (broadcastTo S32x14
          (shapeCast S32x1
            (maximumf (broadcast S32 (FloatOps.ofBits (F := Ideal) .f32 0xFF800000#32))
              (multiReduction (F := Ideal) .maximumf [1] S32 H 0xFF800000#32 hr hφ hmax)) hc) hb)))
        (broadcastTo S32x14
          (shapeCast S32x1
            (multiReduction (F := Ideal) .add [1] S32
              (exp (subf H (broadcastTo S32x14
                (shapeCast S32x1
                  (maximumf (broadcast S32 (FloatOps.ofBits (F := Ideal) .f32 0xFF800000#32))
                    (multiReduction (F := Ideal) .maximumf [1] S32 H 0xFF800000#32 hr hφ hmax)) hc) hb)))
              0x00000000#32 hr hφ hsum) hc) hb) (ix2 p c)
      = Cert.Gnn.softmax (fun c' => H (ix2 p c')) c := by
  refine (divf_apply _ _ _).trans ?_
  rw [broadcastTo_a1_ab_apply, shapeCast_a_a1_apply, sum_classes_apply]
  exact congrArg₂ Ideal.div (exp_shifted_apply H hr hφ hmax hc hb p c)
    (Finset.sum_congr rfl fun c' _ => exp_shifted_apply H hr hφ hmax hc hb p c')

/-! ## The three payloads at an index -/

/-- The reset block is zero everywhere. -/
theorem reset_apply (p : Fin 32) (q : Fin 300) : k0_pay1 (F := Ideal) (ix2 p q) = 0 := by
  unfold k0_pay1
  simp only [shapeCast_self]
  exact Ideal.ofBits_zero_f32

/-- The accumulator update at one entry: the carried value plus the tile's 32 messages. -/
theorem acc_update_apply (x0 : Vec Ideal S32x32x8x300 .f32) (x1 : Vec Ideal S32x32x8 .f32) (x2 : Vec Ideal S32x32x300 .f32)
    (x3 : Vec Ideal S32x32x1 .f32) (acc : Vec Ideal S32x300 .f32) (p : Fin 32) (q : Fin 300) :
    k0_pay2 (F := Ideal) x0 x1 x2 x3 acc (ix2 p q) = acc (ix2 p q) + ∑ l : Fin 32, tmsg x0 x1 x2 x3 p l q := by
  unfold k0_pay2
  simp only [shapeCast_self]
  refine (addf_apply _ _ _).trans ?_
  refine congrArg (acc (ix2 p q) + ·) ?_
  refine (sum_positions_apply _ _ _ _ p q).trans ?_
  refine Finset.sum_congr rfl fun l _ => ?_
  rw [addf_apply, mulf_apply, mulf_apply, broadcastTo_ab1_abc_apply, broadcastTo_ab1_abc_apply, subf_apply, broadcast_apply,
    max_neighbours_apply]
  simp only [mulf_apply, broadcastTo_abc1_abcd_apply, shapeCast_abc_abc1_apply]
  rfl

/-- The classifier step at one entry: `head` of the text's accumulated row. -/
theorem classify_apply (acc : Vec Ideal S32x300 .f32) (w : Vec Ideal S14x300 .f32) (β : Vec Ideal S14 .f32)
    (p : Fin 32) (c : Fin 14) :
    k0_pay3 (F := Ideal) acc w β (ix2 p c) = Cert.Gnn.head w β (fun k => acc (ix2 p k)) c := by
  unfold k0_pay3
  refine (softmax_apply _ _ _ _ _ _ _ p c).trans ?_
  unfold Cert.Gnn.head
  exact congrArg (fun h => Cert.Gnn.softmax h c) (funext fun c' => hidden_apply acc w β _ _ _ p c')

end Cert.Gnn.Tile

end
-- ==== Proof.Blocks.lean ====
/-
  What the kernel's windows hold. Every input window's block at a grid point is a rectangle of its array: point `t`
  is (tile of texts `t / 16`, tile of positions `t % 16`), and entry (p, l, …) of its block is entry
  (32·(t / 16) + p, 32·(t % 16) + l, …) of the array; the weights' and the bias's windows hold their whole arrays.
  The arrays the windows stage are what the host operations before the call wrote: the same four gathers the
  reference makes (the edge weights reshaped from [128,512,8,1] to [128,512,8]).
-/
import proofs.«140302_j2362232013143_1_alg».proof.Proof.Spec
import proofs.«140302_j2362232013143_1_alg».proof.Proof.Gen.KernelIdeal.Frame
import proofs.«140302_j2362232013143_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run

noncomputable section

namespace Cert.Gnn.Blocks

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The text a tile's row `p` is, at point `t`. -/
abbrev textOf (t : Fin cfg0.N) (p : Fin 32) : Fin 128 :=
  ⟨32 * (t.val / 16) + p.val, by have := t.isLt; have : cfg0.N = 64 := N_0; have := p.isLt; omega⟩
/-- The position a tile's column `l` is, at point `t`. -/
abbrev posOf (t : Fin cfg0.N) (l : Fin 32) : Fin 512 :=
  ⟨32 * (t.val % 16) + l.val, by have := l.isLt; omega⟩

/-! ## Blocks are rectangles of the arrays -/

/-- The four tiled windows' index maps, decided once over the grid: at point `t` the block is
    (t / 16, t % 16, 0, …) — a tile of 32 texts by 32 positions, whole along the remaining axes. -/
private theorem idx0 : ∀ t : Fin cfg0.N, win0_0.index t (0 : Fin 4) = t.val / 16 ∧ win0_0.index t (1 : Fin 4) = t.val % 16
    ∧ win0_0.index t (2 : Fin 4) = 0 ∧ win0_0.index t (3 : Fin 4) = 0 :=
  (by decide +kernel : ∀ t : Fin grid0.N, _)
private theorem idx1 : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, _)
private theorem idx2 : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, _)
private theorem idx3 : ∀ t : Fin cfg0.N, win0_3.index t (0 : Fin 3) = t.val / 16 ∧ win0_3.index t (1 : Fin 3) = t.val % 16
    ∧ win0_3.index t (2 : Fin 3) = 0 :=
  (by decide +kernel : ∀ t : Fin grid0.N, _)
/-- The weights' and the bias's windows sit at block 0 at every point. -/
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 1) = 0 :=
  (by decide +kernel : ∀ t : Fin grid0.N, _)

theorem iblk0_apply (c : Dev nD) (t : Fin cfg0.N) (p l : Fin 32) (k : Fin 8) (q : Fin 300) :
    (iblk m c 0 t : Vec Ideal S32x32x8x300 .f32) (ix4 p l k q)
      = (V m c main_v13 : S128x512x8x300.Idx → EReal) (ix4 (textOf t p) (posOf t l) k q) := by
  obtain ⟨h0, h1, h2, h3⟩ := idx0 t
  unfold iblk
  rw [View.read_apply]
  show V m c main_v13 _ = V m c main_v13 _
  congr 1
  funext a
  apply Fin.ext
  match a with
  | ⟨0, _⟩ => show win0_0.index t 0 * 32 + 1 * p.val = 32 * (t.val / 16) + p.val; rw [h0]; omega
  | ⟨1, _⟩ => show win0_0.index t 1 * 32 + 1 * l.val = 32 * (t.val % 16) + l.val; rw [h1]; omega
  | ⟨2, _⟩ => show win0_0.index t 2 * 8 + 1 * k.val = k.val; rw [h2]; omega
  | ⟨3, _⟩ => show win0_0.index t 3 * 300 + 1 * q.val = q.val; rw [h3]; omega

theorem iblk1_apply (c : Dev nD) (t : Fin cfg0.N) (p l : Fin 32) (k : Fin 8) :
    (iblk m c 1 t : Vec Ideal S32x32x8 .f32) (ix3 p l k)
      = (V m c main_v21 : S128x512x8.Idx → EReal) (ix3 (textOf t p) (posOf t l) k) := by
  obtain ⟨h0, h1, h2⟩ := idx1 t
  unfold iblk
  rw [View.read_apply]
  show V m c main_v21 _ = V m c main_v21 _
  congr 1
  funext a
  apply Fin.ext
  match a with
  | ⟨0, _⟩ => show win0_1.index t 0 * 32 + 1 * p.val = 32 * (t.val / 16) + p.val; rw [h0]; omega
  | ⟨1, _⟩ => show win0_1.index t 1 * 32 + 1 * l.val = 32 * (t.val % 16) + l.val; rw [h1]; omega
  | ⟨2, _⟩ => show win0_1.index t 2 * 8 + 1 * k.val = k.val; rw [h2]; omega

theorem iblk2_apply (c : Dev nD) (t : Fin cfg0.N) (p l : Fin 32) (q : Fin 300) :
    (iblk m c 2 t : Vec Ideal S32x32x300 .f32) (ix3 p l q)
      = (V m c main_v6 : S128x512x300.Idx → EReal) (ix3 (textOf t p) (posOf t l) q) := by
  obtain ⟨h0, h1, h2⟩ := idx2 t
  unfold iblk
  rw [View.read_apply]
  show V m c main_v6 _ = V m c main_v6 _
  congr 1
  funext a
  apply Fin.ext
  match a with
  | ⟨0, _⟩ => show win0_2.index t 0 * 32 + 1 * p.val = 32 * (t.val / 16) + p.val; rw [h0]; omega
  | ⟨1, _⟩ => show win0_2.index t 1 * 32 + 1 * l.val = 32 * (t.val % 16) + l.val; rw [h1]; omega
  | ⟨2, _⟩ => show win0_2.index t 2 * 300 + 1 * q.val = q.val; rw [h2]; omega

theorem iblk3_apply (c : Dev nD) (t : Fin cfg0.N) (p l : Fin 32) :
    (iblk m c 3 t : Vec Ideal S32x32x1 .f32) (ix3 p l 0)
      = (V m c main_v28 : S128x512x1.Idx → EReal) (ix3 (textOf t p) (posOf t l) 0) := by
  obtain ⟨h0, h1, h2⟩ := idx3 t
  unfold iblk
  rw [View.read_apply]
  show V m c main_v28 _ = V m c main_v28 _
  congr 1
  funext a
  apply Fin.ext
  match a with
  | ⟨0, _⟩ => show win0_3.index t 0 * 32 + 1 * p.val = 32 * (t.val / 16) + p.val; rw [h0]; omega
  | ⟨1, _⟩ => show win0_3.index t 1 * 32 + 1 * l.val = 32 * (t.val % 16) + l.val; rw [h1]; omega
  | ⟨2, _⟩ => show win0_3.index t 2 * 1 + 1 * 0 = 0; rw [h2]

theorem iblk4_eq (c : Dev nD) (t : Fin cfg0.N) :
    (iblk m c 4 t : Vec Ideal S14x300 .f32) = m ((c : Thread nD τ).loc main_arg6) := by
  obtain ⟨h0, h1⟩ := idx4 t
  funext j
  unfold iblk
  rw [View.read_apply]
  show V m c main_arg6 _ = m ((c : Thread nD τ).loc main_arg6) j
  rw [V_main_arg6 m c]
  congr 1
  funext a
  apply Fin.ext
  match a with
  | ⟨0, _⟩ => show win0_4.index t 0 * 14 + 1 * (j 0).val = (j 0).val; rw [h0]; omega
  | ⟨1, _⟩ => show win0_4.index t 1 * 300 + 1 * (j 1).val = (j 1).val; rw [h1]; omega

theorem iblk5_eq (c : Dev nD) (t : Fin cfg0.N) :
    (iblk m c 5 t : Vec Ideal S14 .f32) = m ((c : Thread nD τ).loc main_arg7) := by
  have h0 := idx5 t
  funext j
  unfold iblk
  rw [View.read_apply]
  show V m c main_arg7 _ = m ((c : Thread nD τ).loc main_arg7) j
  rw [V_main_arg7 m c]
  congr 1
  funext a
  apply Fin.ext
  match a with
  | ⟨0, _⟩ => show win0_5.index t 0 * 14 + 1 * (j 0).val = (j 0).val; rw [h0]; omega

/-! ## The staged arrays are the reference's gathers of the same arguments -/

theorem V_v13_eq (c : Dev nD) :
    (V m c main_v13 : S128x512x8x300.Idx → EReal)
      = Cert.ReferenceIdeal.Read.val_main_v13 (F := Ideal) (m ((c : Thread nD τ).loc main_arg1)) (m ((c : Thread nD τ).loc main_arg3)) := by
  dsimp only [V, hostOps0]
  after_results_simp
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8
    Cert.ReferenceIdeal.Read.val_main_v7 Cert.ReferenceIdeal.Read.val_main_c_1 Cert.ReferenceIdeal.Read.val_main_c_2
  rfl

/-- The staged edge weights are the row-major recast, from [128,512,8,1] to [128,512,8], of the gather of the weight
    column at the wrapped edge ids — the gather being the reference's stage of the same two arguments, term for term. -/
private theorem V_v21_eq_cast (c : Dev nD) :
    (V m c main_v21 : S128x512x8.Idx → EReal)
      = shapeCast S128x512x8 (Cert.ReferenceIdeal.Read.val_main_v20 (F := Ideal) (m ((c : Thread nD τ).loc main_arg2))
          (m ((c : Thread nD τ).loc main_arg4)) : S128x512x8x1.Idx → EReal) shapeCasts_S128x512x8x1_S128x512x8 := by
  dsimp only [V, hostOps0]
  after_results_simp
  unfold Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15
    Cert.ReferenceIdeal.Read.val_main_v14 Cert.ReferenceIdeal.Read.val_main_c_3 Cert.ReferenceIdeal.Read.val_main_c_4
  rfl

theorem V_v21_apply (c : Dev nD) (b : Fin 128) (l : Fin 512) (k : Fin 8) :
    (V m c main_v21 : S128x512x8.Idx → EReal) (ix3 b l k)
      = Cert.ReferenceIdeal.Read.val_main_v20 (F := Ideal) (m ((c : Thread nD τ).loc main_arg2)) (m ((c : Thread nD τ).loc main_arg4)) (ix4 b l k 0) := by
  rw [V_v21_eq_cast m c]
  refine shapeCast_apply _ _ _ _ ?_
  rw [Shape.rowMajor_val_four, Shape.rowMajor_val_three]
  show ((b.val * 512 + l.val) * 8 + k.val) * 1 + 0 = (b.val * 512 + l.val) * 8 + k.val
  omega

theorem V_v6_eq (c : Dev nD) :
    (V m c main_v6 : S128x512x300.Idx → EReal)
      = Cert.ReferenceIdeal.Read.val_main_v6 (F := Ideal) (m ((c : Thread nD τ).loc main_arg0)) (m ((c : Thread nD τ).loc main_arg3)) := by
  dsimp only [V, hostOps0]
  after_results_simp
  unfold Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
  rfl

theorem V_v28_eq (c : Dev nD) :
    (V m c main_v28 : S128x512x1.Idx → EReal)
      = Cert.ReferenceIdeal.Read.val_main_v30 (F := Ideal) (m ((c : Thread nD τ).loc main_arg0)) (m ((c : Thread nD τ).loc main_arg5)) := by
  dsimp only [V, hostOps0]
  after_results_simp
  unfold Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25
    Cert.ReferenceIdeal.Read.val_main_v24 Cert.ReferenceIdeal.Read.val_main_c_5 Cert.ReferenceIdeal.Read.val_main_c_6
  rfl

end Cert.Gnn.Blocks

end
-- ==== Proof.Pieces.lean ====
/-
  What each kind of grid point leaves behind, as values. A point either starts a text tile's run over the positions
  (it stores the zero block into the accumulator, reads it back and adds its tile's sums), continues it (it adds its
  tile's sums to what the point before left), or ends it (it adds likewise and then writes the classifier's output for
  the accumulated rows). Each store covers its whole buffer, so what a buffer holds afterwards is the last stored
  payload, a pure function of the blocks the point loaded.
-/
import proofs.«140302_j2362232013143_1_alg».proof.Proof.Gen.KernelIdeal.Frame
import Idealize.ShloMosaic.Lib.Pipeline.Value
import Idealize.ShloMosaic.Lib.Tactic

noncomputable section

namespace Cert.Gnn.Pieces

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point that starts a run leaves in the accumulator the update of the zero block by its tile. -/
theorem acc_start (c : Dev nD) (i : grid0.Coords) (arg2 : Memref sig .tc .vmem S32x32x8x300 .f32) (harg2 : arg2.IsWhole) (arg3 : Memref sig .tc .vmem S32x32x8 .f32) (harg3 : arg3.IsWhole) (arg4 : Memref sig .tc .vmem S32x32x300 .f32) (harg4 : arg4.IsWhole) (arg5 : Memref sig .tc .vmem S32x32x1 .f32) (harg5 : arg5.IsWhole) (arg6 : Memref sig .tc .vmem S14x300 .f32) (harg6 : arg6.IsWhole) (arg7 : Memref sig .tc .vmem S14 .f32) (harg7 : arg7.IsWhole) (arg8 : Memref sig .tc .vmem S32x14 .f32) (harg8 : arg8.IsWhole) (arg9 : Memref sig .tc .vmem S32x300 .f32) (harg9 : arg9.IsWhole) (hc0 : cond0_0 i) (hc1 : ¬cond0_1 i)
    (x0 : Vec F S32x32x8x300 .f32) (x1 : Vec F S32x32x8 .f32) (x2 : Vec F S32x32x300 .f32) (x3 : Vec F S32x32x1 .f32) (x4 : Vec F S14x300 .f32) (x5 : Vec F S14 .f32) :
    sout0_A_0 c i arg2 harg2 arg3 harg3 arg4 harg4 arg5 harg5 arg6 harg6 arg7 harg7 arg8 harg8 arg9 harg9 hc0 hc1 x0 x1 x2 x3 x4 x5 = k0_pay2 x0 x1 x2 x3 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S32x300) hz2, View.readCov_unit_zero (S := S32x300) _ hz2]
  simp only [View.readAt_eq_ld, harg2.read_unread, harg3.read_unread, harg4.read_unread, harg5.read_unread, harg6.read_unread, harg7.read_unread, harg9.read_unread, View.ld_unit_zero (S := S32x32x8x300) hz4, View.ld_unit_zero (S := S32x32x8) hz3, View.ld_unit_zero (S := S32x32x300) hz3, View.ld_unit_zero (S := S32x32x1) hz3, View.ld_unit_zero (S := S32x300) hz2, View.ld_unit_zero (S := S14x300) hz2, View.ld_unit_zero (S := S14) hz1]

/-- A point inside a run leaves in the accumulator the update of what it found there by its tile. -/
theorem acc_step (c : Dev nD) (i : grid0.Coords) (arg2 : Memref sig .tc .vmem S32x32x8x300 .f32) (harg2 : arg2.IsWhole) (arg3 : Memref sig .tc .vmem S32x32x8 .f32) (harg3 : arg3.IsWhole) (arg4 : Memref sig .tc .vmem S32x32x300 .f32) (harg4 : arg4.IsWhole) (arg5 : Memref sig .tc .vmem S32x32x1 .f32) (harg5 : arg5.IsWhole) (arg6 : Memref sig .tc .vmem S14x300 .f32) (harg6 : arg6.IsWhole) (arg7 : Memref sig .tc .vmem S14 .f32) (harg7 : arg7.IsWhole) (arg8 : Memref sig .tc .vmem S32x14 .f32) (harg8 : arg8.IsWhole) (arg9 : Memref sig .tc .vmem S32x300 .f32) (harg9 : arg9.IsWhole) (hc0 : ¬cond0_0 i) (hc1 : ¬cond0_1 i)
    (x0 : Vec F S32x32x8x300 .f32) (x1 : Vec F S32x32x8 .f32) (x2 : Vec F S32x32x300 .f32) (x3 : Vec F S32x32x1 .f32) (x4 : Vec F S14x300 .f32) (x5 : Vec F S14 .f32) (xs0 : Vec F S32x300 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S32x32x8x300) hz4, View.ld_unit_zero (S := S32x32x8) hz3, View.ld_unit_zero (S := S32x32x300) hz3, View.ld_unit_zero (S := S32x32x1) hz3, View.ld_unit_zero (S := S32x300) hz2, View.ld_unit_zero (S := S14x300) hz2, View.ld_unit_zero (S := S14) hz1]

/-- A point that ends a run leaves in the accumulator the same update … -/
theorem acc_last (c : Dev nD) (i : grid0.Coords) (arg2 : Memref sig .tc .vmem S32x32x8x300 .f32) (harg2 : arg2.IsWhole) (arg3 : Memref sig .tc .vmem S32x32x8 .f32) (harg3 : arg3.IsWhole) (arg4 : Memref sig .tc .vmem S32x32x300 .f32) (harg4 : arg4.IsWhole) (arg5 : Memref sig .tc .vmem S32x32x1 .f32) (harg5 : arg5.IsWhole) (arg6 : Memref sig .tc .vmem S14x300 .f32) (harg6 : arg6.IsWhole) (arg7 : Memref sig .tc .vmem S14 .f32) (harg7 : arg7.IsWhole) (arg8 : Memref sig .tc .vmem S32x14 .f32) (harg8 : arg8.IsWhole) (arg9 : Memref sig .tc .vmem S32x300 .f32) (harg9 : arg9.IsWhole) (hc0 : ¬cond0_0 i) (hc1 : cond0_1 i)
    (x0 : Vec F S32x32x8x300 .f32) (x1 : Vec F S32x32x8 .f32) (x2 : Vec F S32x32x300 .f32) (x3 : Vec F S32x32x1 .f32) (x4 : Vec F S14x300 .f32) (x5 : Vec F S14 .f32) (xs0 : Vec F S32x300 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S32x32x8x300) hz4, View.ld_unit_zero (S := S32x32x8) hz3, View.ld_unit_zero (S := S32x32x300) hz3, View.ld_unit_zero (S := S32x32x1) hz3, View.ld_unit_zero (S := S32x300) hz2, View.ld_unit_zero (S := S14x300) hz2, View.ld_unit_zero (S := S14) hz1]

/-- … and in the output's buffer the classifier's output for that updated accumulator. -/
theorem out_last (c : Dev nD) (i : grid0.Coords) (arg2 : Memref sig .tc .vmem S32x32x8x300 .f32) (harg2 : arg2.IsWhole) (arg3 : Memref sig .tc .vmem S32x32x8 .f32) (harg3 : arg3.IsWhole) (arg4 : Memref sig .tc .vmem S32x32x300 .f32) (harg4 : arg4.IsWhole) (arg5 : Memref sig .tc .vmem S32x32x1 .f32) (harg5 : arg5.IsWhole) (arg6 : Memref sig .tc .vmem S14x300 .f32) (harg6 : arg6.IsWhole) (arg7 : Memref sig .tc .vmem S14 .f32) (harg7 : arg7.IsWhole) (arg8 : Memref sig .tc .vmem S32x14 .f32) (harg8 : arg8.IsWhole) (arg9 : Memref sig .tc .vmem S32x300 .f32) (harg9 : arg9.IsWhole) (hc0 : ¬cond0_0 i) (hc1 : cond0_1 i)
    (x0 : Vec F S32x32x8x300 .f32) (x1 : Vec F S32x32x8 .f32) (x2 : Vec F S32x32x300 .f32) (x3 : Vec F S32x32x1 .f32) (x4 : Vec F S14x300 .f32) (x5 : Vec F S14 .f32) (xs0 : Vec F S32x300 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 x0 x1 x2 x3 xs0) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readCov_unit_zero (S := S32x300) _ hz2, View.readAt_eq_ld, harg2.read_unread, harg3.read_unread, harg4.read_unread, harg5.read_unread, harg6.read_unread, harg7.read_unread, harg9.read_unread, View.ld_unit_zero (S := S32x32x8x300) hz4, View.ld_unit_zero (S := S32x32x8) hz3, View.ld_unit_zero (S := S32x32x300) hz3, View.ld_unit_zero (S := S32x32x1) hz3, View.ld_unit_zero (S := S32x300) hz2, View.ld_unit_zero (S := S14x300) hz2, View.ld_unit_zero (S := S14) hz1]

end Cert.Gnn.Pieces

end
-- ==== Proof.Acc.lean ====
/-
  The accumulator, point by point. Point `n` of the grid is (tile of texts `n / 16`, tile of positions `n % 16`); the
  sixteen points of one text tile run in order. After point `n` the accumulator's entry (p, q) is the sum of the
  messages of text `32·(n / 16) + p` at feature `q` over the first `32·(n % 16) + 32` positions (`acc_inv`, by
  induction on the point: a run's first point adds its tile to the zero block, every later point adds its tile to what
  the point before left). At a run's last point all 512 positions are in, and the block written back is the
  classifier's output of the pooled rows (`out_at_last`).
-/
import proofs.«140302_j2362232013143_1_alg».proof.Proof.Spec
import proofs.«140302_j2362232013143_1_alg».proof.Proof.Tile
import proofs.«140302_j2362232013143_1_alg».proof.Proof.Blocks
import proofs.«140302_j2362232013143_1_alg».proof.Proof.Pieces
import proofs.«140302_j2362232013143_1_alg».proof.Proof.Gen.KernelIdeal.Frame

noncomputable section

open scoped BigOperators

namespace Cert.Gnn.Acc

open Idealize.ShloMosaic Idealize.ShloMosaic.ValueIdx Idealize.ShloMosaic.TcCoe Idealize.SL.Sem
open Cert.KernelIdeal Cert.KernelIdeal.Gen Cert.Gnn.Blocks

variable (m : (ℓ : Loc nD τ sig) → Buf (Elt Ideal) ℓ)

/-- The four gathered arrays as functions of the kernel's arguments. -/
abbrev gRa (c : Dev nD) : SRa.Idx → EReal :=
  Cert.ReferenceIdeal.Read.val_main_v13 (F := Ideal) (m ((c : Thread nD τ).loc main_arg1)) (m ((c : Thread nD τ).loc main_arg3))
abbrev gEa (c : Dev nD) : SEa.Idx → EReal :=
  Cert.ReferenceIdeal.Read.val_main_v20 (F := Ideal) (m ((c : Thread nD τ).loc main_arg2)) (m ((c : Thread nD τ).loc main_arg4))
abbrev gRn (c : Dev nD) : SRn.Idx → EReal :=
  Cert.ReferenceIdeal.Read.val_main_v6 (F := Ideal) (m ((c : Thread nD τ).loc main_arg0)) (m ((c : Thread nD τ).loc main_arg3))
abbrev gNn (c : Dev nD) : SNn.Idx → EReal :=
  Cert.ReferenceIdeal.Read.val_main_v30 (F := Ideal) (m ((c : Thread nD τ).loc main_arg0)) (m ((c : Thread nD τ).loc main_arg5))

/-- The input blocks at a point, named at their literal types. -/
abbrev B0 (c : Dev nD) (t : Fin cfg0.N) : Vec Ideal S32x32x8x300 .f32 := iblk m c 0 t
abbrev B1 (c : Dev nD) (t : Fin cfg0.N) : Vec Ideal S32x32x8 .f32 := iblk m c 1 t
abbrev B2 (c : Dev nD) (t : Fin cfg0.N) : Vec Ideal S32x32x300 .f32 := iblk m c 2 t
abbrev B3 (c : Dev nD) (t : Fin cfg0.N) : Vec Ideal S32x32x1 .f32 := iblk m c 3 t

/-- A tile's message is the layer's message at the text and position the tile's entry stands for. -/
theorem tmsg_eq (c : Dev nD) (t : Fin cfg0.N) (p l : Fin 32) (q : Fin 300) :
    Tile.tmsg (B0 m c t) (B1 m c t) (B2 m c t) (B3 m c t) p l q
      = msg (gRa m c) (gEa m c) (gRn m c) (gNn m c) (textOf t p) (posOf t l) q := by
  have e3 : B3 m c t (ix3 p l 0) = gNn m c (ix3 (textOf t p) (posOf t l) 0) :=
    (iblk3_apply m c t p l).trans (congrFun (V_v28_eq m c) _)
  have e2 : B2 m c t (ix3 p l q) = gRn m c (ix3 (textOf t p) (posOf t l) q) :=
    (iblk2_apply m c t p l q).trans (congrFun (V_v6_eq m c) _)
  have e0 : ∀ k : Fin 8, B0 m c t (ix4 p l k q) = gRa m c (ix4 (textOf t p) (posOf t l) k q) := fun k =>
    (iblk0_apply m c t p l k q).trans (congrFun (V_v13_eq m c) _)
  have e1 : ∀ k : Fin 8, B1 m c t (ix3 p l k) = gEa m c (ix4 (textOf t p) (posOf t l) k 0) := fun k =>
    (iblk1_apply m c t p l k).trans (V_v21_apply m c _ _ k)
  unfold Tile.tmsg msg
  rw [e3, e2]
  exact congrArg _ (funext fun k => by rw [e0 k, e1 k])

/-- The tile's 32 messages are the next 32 terms of the text's sum over positions. -/
theorem sum_tile (c : Dev nD) (t : Fin cfg0.N) (p : Fin 32) (q : Fin 300) :
    ∑ l : Fin 32, Tile.tmsg (B0 m c t) (B1 m c t) (B2 m c t) (B3 m c t) p l q
      = ∑ l' : Fin 32, msgN (gRa m c) (gEa m c) (gRn m c) (gNn m c) (textOf t p) q (32 * (t.val % 16) + l'.val) :=
  Finset.sum_congr rfl fun l _ => by
    rw [tmsg_eq]; unfold msgN; rw [dif_pos (posOf t l).isLt]

/-- A run's first point: the zero block plus the tile. -/
theorem start_case (c : Dev nD) (n : ℕ) (h : n < cfg0.N) (h0 : n % 16 = 0) (h1 : ¬n % 16 = 15) (p : Fin 32) (q : Fin 300) :
    (outsAt0 m c n h).2 (ix2 p q) = psum (gRa m c) (gEa m c) (gRn m c) (gNn m c) (textOf ⟨n, h⟩ p) q (32 * (n % 16) + 32) := by
  rw [outsAt0_A m c ⟨n, h⟩ h0 h1]
  dsimp only
  rw [Pieces.acc_start, Tile.acc_update_apply, Tile.reset_apply, zero_add]
  refine (sum_tile m c ⟨n, h⟩ p q).trans ?_
  have hs : ∀ b, psum (gRa m c) (gEa m c) (gRn m c) (gNn m c) b q (32 * (n % 16) + 32)
      = ∑ l' : Fin 32, msgN (gRa m c) (gEa m c) (gRn m c) (gNn m c) b q (32 * (n % 16) + l'.val) := fun b => by
    rw [psum_add, h0, Nat.mul_zero, psum_zero, zero_add]
  exact (hs _).symm

/-- What the accumulator holds after each point. -/
theorem acc_inv (c : Dev nD) : ∀ (n : ℕ) (h : n < cfg0.N) (p : Fin 32) (q : Fin 300),
    (outsAt0 m c n h).2 (ix2 p q) = psum (gRa m c) (gEa m c) (gRn m c) (gNn m c) (textOf ⟨n, h⟩ p) q (32 * (n % 16) + 32) := by
  intro n
  induction n with
  | zero => intro h p q; exact start_case m c 0 h rfl (by decide) p q
  | succ n ih =>
    intro h p q
    have hN : cfg0.N = 64 := N_0
    by_cases h0 : (n + 1) % 16 = 0
    · exact start_case m c (n + 1) h h0 (by omega) p q
    · have ihn := ih (Nat.lt_of_succ_lt h) p q
      have et : textOf ⟨n, Nat.lt_of_succ_lt h⟩ p = textOf ⟨n + 1, h⟩ p :=
        Fin.ext (by show 32 * (n / 16) + p.val = 32 * ((n + 1) / 16) + p.val; omega)
      have en : 32 * (n % 16) + 32 = 32 * ((n + 1) % 16) := by omega
      rw [et, en] at ihn
      have close : ∀ (acc : Vec Ideal S32x300 .f32), acc (ix2 p q) = psum (gRa m c) (gEa m c) (gRn m c) (gNn m c) (textOf ⟨n + 1, h⟩ p) q (32 * ((n + 1) % 16)) →
          k0_pay2 (F := Ideal) (B0 m c ⟨n + 1, h⟩) (B1 m c ⟨n + 1, h⟩) (B2 m c ⟨n + 1, h⟩) (B3 m c ⟨n + 1, h⟩) acc (ix2 p q)
            = psum (gRa m c) (gEa m c) (gRn m c) (gNn m c) (textOf ⟨n + 1, h⟩ p) q (32 * ((n + 1) % 16) + 32) := fun acc hacc => by
        rw [Tile.acc_update_apply, hacc, psum_add]
        exact congrArg _ (sum_tile m c ⟨n + 1, h⟩ p q)
      by_cases h1 : (n + 1) % 16 = 15
      · rw [outsAt0_C m c ⟨n + 1, h⟩ h0 h1]
        dsimp only
        rw [Pieces.acc_last]
        exact close _ ihn
      · rw [outsAt0_B m c ⟨n + 1, h⟩ h0 h1]
        dsimp only
        rw [Pieces.acc_step]
        exact close _ ihn

/-- At a run's last point the accumulator, updated, holds the pooled sums of its 32 texts. -/
theorem acc_at_last (c : Dev nD) (t : Fin cfg0.N) (h0 : ¬t.val % 16 = 0) (h1 : t.val % 16 = 15) (p : Fin 32) (k : Fin 300) :
    k0_pay2 (F := Ideal) (B0 m c t) (B1 m c t) (B2 m c t) (B3 m c t)
        (outsAt0 m c (t.val - 1) (Nat.lt_of_le_of_lt (Nat.sub_le _ _) t.isLt)).2 (ix2 p k)
      = pooled (gRa m c) (gEa m c) (gRn m c) (gNn m c) (textOf t p) k := by
  have h := acc_inv m c t.val t.isLt p k
  rw [outsAt0_C m c t h0 h1] at h
  dsimp only at h
  rw [Pieces.acc_last] at h
  rw [← psum_all]
  refine h.trans ?_
  rw [h1]

/-- The block a run's last point writes back: the layer's output for its 32 texts. -/
theorem out_at_last (c : Dev nD) (t : Fin cfg0.N) (h1 : t.val % 16 = 15) (p : Fin 32) (cc : Fin 14) :
    (outsAt0 m c t.val t.isLt).1 (ix2 p cc)
      = out (gRa m c) (gEa m c) (gRn m c) (gNn m c) (m ((c : Thread nD τ).loc main_arg6)) (m ((c : Thread nD τ).loc main_arg7)) (ix2 (textOf t p) cc) := by
  have h0 : ¬t.val % 16 = 0 := by omega
  rw [outsAt0_C m c t h0 h1]
  dsimp only
  rw [Pieces.out_last, Tile.classify_apply, iblk4_eq, iblk5_eq]
  show head _ _ _ cc = head _ _ (fun k => pooled (gRa m c) (gEa m c) (gRn m c) (gNn m c) (textOf t p) k) cc
  exact congrArg (fun row => head _ _ row cc) (funext fun k => acc_at_last m c t h0 h1 p k)

end Cert.Gnn.Acc

end
-- ==== Proof.KernelValue.lean ====
/-
  The kernel's result array. The output window's block at point `t` is rows `32·(t / 16) … 32·(t / 16) + 31` of the
  [128, 14] result, and only a text tile's last point (`t % 16 = 15`) writes its block back. What it writes is the
  layer's output for those 32 texts (`flushed_eq`), and the four last points' blocks tile the array (`cover`), so the
  array after the run is the layer's output as a whole (`final`).
-/
import proofs.«140302_j2362232013143_1_alg».proof.Proof.Spec
import proofs.«140302_j2362232013143_1_alg».proof.Proof.Acc
import proofs.«140302_j2362232013143_1_alg».proof.Proof.Gen.KernelIdeal.Value
import Idealize.ShloMosaic.Lib.Pipeline.Value

noncomputable section

namespace Cert.Gnn.KernelValue

open Idealize.ShloMosaic Idealize.ShloMosaic.ValueIdx Idealize.ShloMosaic.TcCoe Idealize.SL.Sem
open Idealize.ShloMosaic.Pipeline (Dat)
open Cert.KernelIdeal Cert.KernelIdeal.Gen Cert.Gnn.Blocks Cert.Gnn.Acc

variable (m : (ℓ : Loc nD τ sig) → Buf (Elt Ideal) ℓ) (ρ : Dev nD → PrngReg)

/-- The layer's output as a function of the kernel's arguments. -/
abbrev result (c : Dev nD) : S128x14.Idx → EReal :=
  out (gRa m c) (gEa m c) (gRn m c) (gNn m c) (m ((c : Thread nD τ).loc main_arg6)) (m ((c : Thread nD τ).loc main_arg7))

/-- The output window's block index at a point: the text tile, and column block 0. -/
theorem idx6 : ∀ t : Fin cfg0.N, win0_6.index t (0 : Fin 2) = t.val / 16 ∧ win0_6.index t (1 : Fin 2) = 0 :=
  (by decide +kernel : ∀ t : Fin grid0.N, _)

/-- What a writing point writes back is its block of the layer's output. -/
theorem flushed_eq (c : Dev nD) (t : Fin cfg0.N) (hf : (cfg0.win 6).flush t = true) :
    (dats m 0 c).flushed 6 t = ((cfg0.win 6).blk t).view.read (Elt Ideal) (result m c) := by
  have h1 : t.val % 16 = 15 := (flush0_6 t).mp hf
  obtain ⟨e0, e1⟩ := idx6 t
  rw [Cert.KernelIdeal.Value.flushed6]
  funext j
  obtain ⟨p, cc, rfl⟩ : ∃ (p : Fin 32) (cc : Fin 14), j = ix2 p cc := ⟨j 0, j 1, eq_ix2 j⟩
  show (outsAt0 m c t.val t.isLt).1 (ix2 p cc) = result m c (((cfg0.win 6).blk t).view.emb (ix2 p cc))
  rw [out_at_last m c t h1 p cc]
  refine congrArg (result m c) (funext fun a => Fin.ext ?_)
  match a with
  | ⟨0, _⟩ => show 32 * (t.val / 16) + p.val = win0_6.index t (0 : Fin 2) * 32 + 1 * p.val; rw [e0]; omega
  | ⟨1, _⟩ => show cc.val = win0_6.index t (1 : Fin 2) * 14 + 1 * cc.val; rw [e1]; omega

/-- An index of the array is in point `t`'s block iff each coordinate is in the block's range on its axis. -/
theorem mem_blk (t : Fin cfg0.N) (i : S128x14.Idx) :
    i ∈ ((cfg0.win 6).blk t).view.set ↔ ∀ a : Fin 2, win0_6.index t a * S32x14.size a ≤ (i a).val ∧ (i a).val < win0_6.index t a * S32x14.size a + S32x14.size a := by
  show i ∈ ((View.whole main_v29).slice (win0_6.rect t)).set ↔ _
  rw [View.set_slice_whole, Rect.mem_set_unit]
  exact Iff.rfl

/-- Every entry of the result lies in the block of its text tile's last point. -/
theorem cover (i : S128x14.Idx) : ∃ t : Fin cfg0.N, (cfg0.win 6).flush t = true ∧ i ∈ ((cfg0.win 6).blk t).view.set := by
  have hi0 : (i 0).val < 128 := (i 0).isLt
  have hi1 : (i 1).val < 14 := (i 1).isLt
  have hN : cfg0.N = 64 := N_0
  have ht : 16 * ((i 0).val / 32) + 15 < cfg0.N := by omega
  obtain ⟨e0, e1⟩ := idx6 ⟨16 * ((i 0).val / 32) + 15, ht⟩
  refine ⟨⟨16 * ((i 0).val / 32) + 15, ht⟩, (flush0_6 _).mpr (by show (16 * ((i 0).val / 32) + 15) % 16 = 15; omega), ?_⟩
  rw [mem_blk]
  intro a
  match a with
  | ⟨0, _⟩ =>
    show win0_6.index ⟨16 * ((i 0).val / 32) + 15, ht⟩ (0 : Fin 2) * 32 ≤ (i 0).val ∧ (i 0).val < win0_6.index ⟨16 * ((i 0).val / 32) + 15, ht⟩ (0 : Fin 2) * 32 + 32
    rw [e0]; dsimp only; omega
  | ⟨1, _⟩ =>
    show win0_6.index ⟨16 * ((i 0).val / 32) + 15, ht⟩ (1 : Fin 2) * 14 ≤ (i 1).val ∧ (i 1).val < win0_6.index ⟨16 * ((i 0).val / 32) + 15, ht⟩ (1 : Fin 2) * 14 + 14
    rw [e1]; omega

/-- The result array after the run is the layer's output. -/
theorem final (c : Dev nD) : (dats m 0 c).arrAt 6 cfg0.N = result m c :=
  (dats m 0 c).arrAt_eq_of_cover 6 (result m c) (flushed_eq m c) cover

/-- The kernel's run, read: the result array at the layer's output, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Gnn.KernelValue

end
-- ==== Proof.RefValue.lean ====
/-
  The reference program, read as the layer's mathematics: its result array is `out` of its four gathered arrays, the
  classifier's weights and its bias. The gathers themselves are left as they are; everything after them is read one
  entry at a time: broadcasts and the transpose move indices, the two maxima are folds of `max` from `-∞` over an
  axis, the two sums are an initial zero plus a sum over an axis, the matrix product is a sum over the contraction.
-/
import proofs.«140302_j2362232013143_1_alg».proof.Proof.Spec
import proofs.«140302_j2362232013143_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gnn.Ref

open Idealize.ShloMosaic Idealize.ShloMosaic.ValueIdx Cert.ReferenceIdeal Cert.ReferenceIdeal.Read

section
variable (x0 : (⟨S128x512, .i32⟩ : BufTy).Contents (Elt Ideal)) (x1 x2 : (⟨S128x512x8, .i32⟩ : BufTy).Contents (Elt Ideal))
    (x3 : (⟨S4905x300, .f32⟩ : BufTy).Contents (Elt Ideal)) (x4 : (⟨S24049217x1, .f32⟩ : BufTy).Contents (Elt Ideal))
    (x5 : (⟨S4905x1, .f32⟩ : BufTy).Contents (Elt Ideal)) (x6 : (⟨S14x300, .f32⟩ : BufTy).Contents (Elt Ideal))
    (x7 : (⟨S14, .f32⟩ : BufTy).Contents (Elt Ideal))

/-! ## Where the layout operations read

Each broadcast, the transpose and the two sums read their operand at an index computed from the result's index; at an
index given by its coordinates these are again indices given by coordinates. -/

/-- The edge weight is broadcast along the feature axis: entry (b, l, k, d) reads (b, l, k, 0). -/
private theorem idx21 (b : Fin 128) (l : Fin 512) (k : Fin 8) (d : Fin 300) :
    idx_main_v21 (ix4 b l k d) = ix4 b l k (0 : Fin 1) :=
  funext fun a => Fin.ext (by match a with | ⟨0, _⟩ => rfl | ⟨1, _⟩ => rfl | ⟨2, _⟩ => rfl | ⟨3, _⟩ => rfl)

/-- The gate's complement is broadcast along the feature axis: entry (b, l, d) reads (b, l, 0). -/
private theorem idx33 (b : Fin 128) (l : Fin 512) (d : Fin 300) : idx_main_v33 (ix3 b l d) = ix3 b l (0 : Fin 1) :=
  funext fun a => Fin.ext (by match a with | ⟨0, _⟩ => rfl | ⟨1, _⟩ => rfl | ⟨2, _⟩ => rfl)

/-- The gate is broadcast along the feature axis likewise. -/
private theorem idx35 (b : Fin 128) (l : Fin 512) (d : Fin 300) : idx_main_v35 (ix3 b l d) = ix3 b l (0 : Fin 1) :=
  funext fun a => Fin.ext (by match a with | ⟨0, _⟩ => rfl | ⟨1, _⟩ => rfl | ⟨2, _⟩ => rfl)

/-- The sum over positions at (b, d) reads position l at (b, l, d). -/
private theorem idx38 (b : Fin 128) (d : Fin 300) (l : Fin 512) : idx_main_v38 (ix2 b d) l = ix3 b l d :=
  funext fun a => Fin.ext (by match a with | ⟨0, _⟩ => rfl | ⟨1, _⟩ => rfl | ⟨2, _⟩ => rfl)

/-- The matrix product at (b, c) reads the pooled row at (b, k) … -/
private theorem lidx40 (b : Fin 128) (c : Fin 14) (k : Fin 300) : lidx_main_v40 (ix2 b c) k = ix2 b k :=
  funext fun a => Fin.ext (by match a with | ⟨0, _⟩ => rfl | ⟨1, _⟩ => rfl)

/-- … and the transposed weights at (k, c), which is the weights at (c, k). -/
private theorem ridx40 (b : Fin 128) (c : Fin 14) (k : Fin 300) : idx_main_v39 (ridx_main_v40 (ix2 b c) k) = ix2 c k :=
  funext fun a => Fin.ext (by match a with | ⟨0, _⟩ => rfl | ⟨1, _⟩ => rfl)

/-- The bias is broadcast to one row and then down the texts: entry (b, c) reads c. -/
private theorem idx42 (b : Fin 128) (c : Fin 14) : idx_main_v41 (idx_main_v42 (ix2 b c)) = ix1 c :=
  funext fun a => Fin.ext (by match a with | ⟨0, _⟩ => rfl)

/-- The row's maximum is broadcast to a column and then along the classes: entry (b, c) reads b. -/
private theorem idx49 (b : Fin 128) (c : Fin 14) : idx_main_v48 (idx_main_v49 (ix2 b c)) = ix1 b :=
  funext fun a => Fin.ext (by match a with | ⟨0, _⟩ => rfl)

/-- The sum over classes at b reads class k at (b, k). -/
private theorem idx52 (b : Fin 128) (k : Fin 14) : idx_main_v52 (ix1 b) k = ix2 b k :=
  funext fun a => Fin.ext (by match a with | ⟨0, _⟩ => rfl | ⟨1, _⟩ => rfl)

/-- The row's sum of exponentials is broadcast like its maximum: entry (b, c) reads b. -/
private theorem idx54 (b : Fin 128) (c : Fin 14) : idx_main_v53 (idx_main_v54 (ix2 b c)) = ix1 b :=
  funext fun a => Fin.ext (by match a with | ⟨0, _⟩ => rfl)

/-- Neighbour k put back into (b, l, d) on the neighbour axis is (b, l, k, d). -/
private theorem lift23 (h : S128x512x8x300.Reduces [2] S128x512x300) (b : Fin 128) (l : Fin 512) (d : Fin 300)
    (k : Fin (S128x512x8x300.size 2)) : h.lift (ix3 b l d) k = ix4 b l (⟨k.val, k.isLt⟩ : Fin 8) d :=
  funext fun a => Fin.ext (by match a with | ⟨0, _⟩ => rfl | ⟨1, _⟩ => rfl | ⟨2, _⟩ => rfl | ⟨3, _⟩ => rfl)

/-- Class k put back into b on the class axis is (b, k). -/
private theorem lift45 (h : S128x14.Reduces [1] S128) (b : Fin 128) (k : Fin (S128x14.size 1)) :
    h.lift (ix1 b) k = ix2 b (⟨k.val, k.isLt⟩ : Fin 14) :=
  funext fun a => Fin.ext (by match a with | ⟨0, _⟩ => rfl | ⟨1, _⟩ => rfl)

/-! ## The message -/

/-- The neighbour products: embedding entry times the edge's weight. -/
private theorem prod_apply (b : Fin 128) (l : Fin 512) (k : Fin 8) (d : Fin 300) :
    val_main_v22 (F := Ideal) x1 x2 x3 x4 (ix4 b l k d)
      = val_main_v13 (F := Ideal) x1 x3 (ix4 b l k d) * val_main_v20 (F := Ideal) x2 x4 (ix4 b l k 0) := by
  rw [val_main_v22_apply, val_main_v21_apply, idx21]
  rfl

/-- Their maximum over the eight neighbours, folded from minus infinity. -/
private theorem nbrmax_apply (b : Fin 128) (l : Fin 512) (d : Fin 300) :
    val_main_v23 (F := Ideal) x1 x2 x3 x4 (ix3 b l d)
      = (Finset.univ : Finset (Fin 8)).fold max ninf
          (fun k => val_main_v13 (F := Ideal) x1 x3 (ix4 b l k d) * val_main_v20 (F := Ideal) x2 x4 (ix4 b l k 0)) := by
  have h : S128x512x8x300.Reduces [2] S128x512x300 := by decide
  unfold val_main_v23
  rw [Host.reduce_eq_fold_single FloatOps.maximumf _ _ Gen.reducesTo_S128x512x8x300_S128x512x300_d2 h Gen.h_S_]
  have hf : (val_main_v22 (F := Ideal) x1 x2 x3 x4 ∘ h.lift (ix3 b l d))
      = fun k : Fin 8 => val_main_v13 (F := Ideal) x1 x3 (ix4 b l k d) * val_main_v20 (F := Ideal) x2 x4 (ix4 b l k 0) :=
    funext fun k => by
      show val_main_v22 (F := Ideal) x1 x2 x3 x4 (h.lift (ix3 b l d) k) = _
      rw [lift23, prod_apply]
      rfl
  exact congrArg (fun f => Finset.fold max ninf f (Finset.univ : Finset (Fin 8))) hf

/-- The gated message. -/
private theorem msg_apply (b : Fin 128) (l : Fin 512) (d : Fin 300) :
    val_main_v37 (F := Ideal) x0 x1 x2 x3 x4 x5 (ix3 b l d)
      = Cert.Gnn.msg (val_main_v13 (F := Ideal) x1 x3) (val_main_v20 (F := Ideal) x2 x4) (val_main_v6 (F := Ideal) x0 x3)
          (val_main_v30 (F := Ideal) x0 x5) b l d := by
  rw [val_main_v37_apply, val_main_v34_apply, val_main_v33_apply, val_main_v32_apply, val_main_v31_apply,
    val_main_cst_7_apply, val_main_v36_apply, val_main_v35_apply, idx33, idx35, nbrmax_apply]
  rfl

/-- The messages summed over the positions: the initial value is zero. -/
private theorem pooled_apply (b : Fin 128) (d : Fin 300) :
    val_main_v38 (F := Ideal) x0 x1 x2 x3 x4 x5 (ix2 b d)
      = Cert.Gnn.pooled (val_main_v13 (F := Ideal) x1 x3) (val_main_v20 (F := Ideal) x2 x4) (val_main_v6 (F := Ideal) x0 x3)
          (val_main_v30 (F := Ideal) x0 x5) b d := by
  rw [val_main_v38_apply, val_main_cst_8_apply, Ideal.ofBits_def, Ideal.ofBits_zero_f32, zero_add]
  unfold Cert.Gnn.pooled
  exact Finset.sum_congr rfl fun l _ => by rw [idx38, msg_apply]

/-! ## The classifier -/

/-- The affine map: the matrix product with the transposed weights, plus the bias. -/
private theorem affine_apply (b : Fin 128) (c : Fin 14) :
    val_main_v43 (F := Ideal) x0 x1 x2 x3 x4 x5 x6 x7 (ix2 b c)
      = ∑ k : Fin 300, Cert.Gnn.pooled (val_main_v13 (F := Ideal) x1 x3) (val_main_v20 (F := Ideal) x2 x4)
          (val_main_v6 (F := Ideal) x0 x3) (val_main_v30 (F := Ideal) x0 x5) b k * x6 (ix2 c k) + x7 (ix1 c) := by
  rw [val_main_v43_apply, val_main_v40_apply, val_main_v42_apply, val_main_v41_apply, idx42, Ideal.addf_def]
  refine congrArg (· + x7 (ix1 c)) (Finset.sum_congr rfl fun k _ => ?_)
  rw [lidx40, pooled_apply, val_main_v39_apply, ridx40]

/-- Clamped at zero. -/
private theorem hidden_apply (b : Fin 128) (c : Fin 14) :
    val_main_v44 (F := Ideal) x0 x1 x2 x3 x4 x5 x6 x7 (ix2 b c)
      = Cert.Gnn.hidden x6 x7 (fun k => Cert.Gnn.pooled (val_main_v13 (F := Ideal) x1 x3) (val_main_v20 (F := Ideal) x2 x4)
          (val_main_v6 (F := Ideal) x0 x3) (val_main_v30 (F := Ideal) x0 x5) b k) c := by
  rw [val_main_v44_apply, val_main_call0_v0_apply, val_main_call0_cst_apply, affine_apply]
  rfl

/-- The row's maximum over the fourteen classes, folded from minus infinity and compared with it once more. -/
private theorem rowmax_apply (b : Fin 128) :
    val_main_v47 (F := Ideal) x0 x1 x2 x3 x4 x5 x6 x7 (ix1 b)
      = Cert.Gnn.rowmax (Cert.Gnn.hidden x6 x7 (fun k => Cert.Gnn.pooled (val_main_v13 (F := Ideal) x1 x3)
          (val_main_v20 (F := Ideal) x2 x4) (val_main_v6 (F := Ideal) x0 x3) (val_main_v30 (F := Ideal) x0 x5) b k)) := by
  have h : S128x14.Reduces [1] S128 := by decide
  rw [val_main_v47_apply, val_main_v46_apply, val_main_cst_10_apply]
  unfold val_main_v45
  rw [Host.reduce_eq_fold_single FloatOps.maximumf _ _ Gen.reducesTo_S128x14_S128_d1 h Gen.h_S_]
  have hf : (val_main_v44 (F := Ideal) x0 x1 x2 x3 x4 x5 x6 x7 ∘ h.lift (ix1 b))
      = fun c : Fin 14 => Cert.Gnn.hidden x6 x7 (fun k => Cert.Gnn.pooled (val_main_v13 (F := Ideal) x1 x3)
          (val_main_v20 (F := Ideal) x2 x4) (val_main_v6 (F := Ideal) x0 x3) (val_main_v30 (F := Ideal) x0 x5) b k) c :=
    funext fun k => by
      show val_main_v44 (F := Ideal) x0 x1 x2 x3 x4 x5 x6 x7 (h.lift (ix1 b) k) = _
      rw [lift45, hidden_apply]
      rfl
  unfold Cert.Gnn.rowmax
  exact congrArg (fun f => max ninf (Finset.fold max ninf f (Finset.univ : Finset (Fin 14)))) hf

/-- The shifted row, exponentiated. -/
private theorem exp_apply (b : Fin 128) (c : Fin 14) :
    val_main_v51 (F := Ideal) x0 x1 x2 x3 x4 x5 x6 x7 (ix2 b c)
      = Ideal.exp (Cert.Gnn.hidden x6 x7 (fun k => Cert.Gnn.pooled (val_main_v13 (F := Ideal) x1 x3)
            (val_main_v20 (F := Ideal) x2 x4) (val_main_v6 (F := Ideal) x0 x3) (val_main_v30 (F := Ideal) x0 x5) b k) c
          - Cert.Gnn.rowmax (Cert.Gnn.hidden x6 x7 (fun k => Cert.Gnn.pooled (val_main_v13 (F := Ideal) x1 x3)
            (val_main_v20 (F := Ideal) x2 x4) (val_main_v6 (F := Ideal) x0 x3) (val_main_v30 (F := Ideal) x0 x5) b k))) := by
  rw [val_main_v51_apply, val_main_v50_apply, val_main_v49_apply, val_main_v48_apply, idx49, rowmax_apply, hidden_apply]
  rfl

/-- The row's sum of exponentials: the initial value is zero. -/
private theorem expsum_apply (b : Fin 128) :
    val_main_v52 (F := Ideal) x0 x1 x2 x3 x4 x5 x6 x7 (ix1 b)
      = ∑ c' : Fin 14, Ideal.exp (Cert.Gnn.hidden x6 x7 (fun k => Cert.Gnn.pooled (val_main_v13 (F := Ideal) x1 x3)
            (val_main_v20 (F := Ideal) x2 x4) (val_main_v6 (F := Ideal) x0 x3) (val_main_v30 (F := Ideal) x0 x5) b k) c'
          - Cert.Gnn.rowmax (Cert.Gnn.hidden x6 x7 (fun k => Cert.Gnn.pooled (val_main_v13 (F := Ideal) x1 x3)
            (val_main_v20 (F := Ideal) x2 x4) (val_main_v6 (F := Ideal) x0 x3) (val_main_v30 (F := Ideal) x0 x5) b k))) := by
  rw [val_main_v52_apply, val_main_cst_11_apply, Ideal.ofBits_def, Ideal.ofBits_zero_f32, zero_add]
  exact Finset.sum_congr rfl fun k _ => by rw [idx52, exp_apply]

end

/-- The reference's result is the layer's `out` of its own gathered arrays. -/
theorem result_eq_out (x0 : (⟨S128x512, .i32⟩ : BufTy).Contents (Elt Ideal)) (x1 x2 : (⟨S128x512x8, .i32⟩ : BufTy).Contents (Elt Ideal))
    (x3 : (⟨S4905x300, .f32⟩ : BufTy).Contents (Elt Ideal)) (x4 : (⟨S24049217x1, .f32⟩ : BufTy).Contents (Elt Ideal))
    (x5 : (⟨S4905x1, .f32⟩ : BufTy).Contents (Elt Ideal)) (x6 : (⟨S14x300, .f32⟩ : BufTy).Contents (Elt Ideal))
    (x7 : (⟨S14, .f32⟩ : BufTy).Contents (Elt Ideal)) :
    val_main_v55 (F := Ideal) x0 x1 x2 x3 x4 x5 x6 x7
      = Cert.Gnn.out (val_main_v13 (F := Ideal) x1 x3) (val_main_v20 (F := Ideal) x2 x4) (val_main_v6 (F := Ideal) x0 x3)
          (val_main_v30 (F := Ideal) x0 x5) x6 x7 := by
  funext i
  obtain ⟨b, c, rfl⟩ : ∃ (b : Fin 128) (c : Fin 14), i = ix2 b c := ⟨i 0, i 1, eq_ix2 i⟩
  rw [val_main_v55_apply, val_main_v54_apply, val_main_v53_apply, idx54, expsum_apply, exp_apply]
  rfl

end Cert.Gnn.Ref

end
-- ==== Proof.lean ====
/-
  The certificate of a text-level graph network's message-passing layer against its array-language reference.

  Both programs gather, by the same host operations on the same arguments, the neighbour embeddings, the edge weights,
  the nodes' own embeddings and the gates. From there the reference computes, over whole arrays: the gated message of
  every node — `(1 - gate) · max over the 8 neighbours of (embedding · edge weight) + gate · own embedding` —, its sum
  over the 512 positions of a text, and on each pooled row the classifier: an affine map to 14 classes, a clamp at zero,
  and the soft-max. The kernel computes the same on a grid of 4 tiles of texts by 16 tiles of positions: each point adds
  its tile's 32 messages per text and feature into an accumulator that a text tile's first point resets, and the text
  tile's last point applies the classifier and writes the 32 rows back.

  Over the extended reals the two are one function of the arguments: a sum over 512 positions is the sum of sixteen
  partial sums of 32 whatever the terms (addition of extended reals is commutative and associative, and zero is neutral),
  and everything else is the same operation applied to the same entries. No finiteness of the inputs is used.

  Spec states the mathematics; Tile reads one point's arithmetic at an entry; Blocks says which entries a point's blocks
  are, and that the staged arrays are the reference's gathers; Pieces says what each kind of point stores; Acc is the
  induction over the points; KernelValue assembles the kernel's result array; RefValue reads the reference. The three
  frames are the generated ones (the reference's is its run with the result dropped), and the idealization rewrote
  nothing.
-/
import proofs.«140302_j2362232013143_1_alg».proof.Defs
import proofs.«140302_j2362232013143_1_alg».proof.Proof.Gen.Kernel
import proofs.«140302_j2362232013143_1_alg».proof.Proof.Gen.Kernel.Skeleton
import proofs.«140302_j2362232013143_1_alg».proof.Proof.Gen.Kernel.Launch
import proofs.«140302_j2362232013143_1_alg».proof.Proof.Gen.Kernel.Points
import proofs.«140302_j2362232013143_1_alg».proof.Proof.Gen.Kernel.Frame
import proofs.«140302_j2362232013143_1_alg».proof.Proof.Gen.KernelIdeal
import proofs.«140302_j2362232013143_1_alg».proof.Proof.Gen.KernelIdeal.Skeleton
import proofs.«140302_j2362232013143_1_alg».proof.Proof.Gen.KernelIdeal.Launch
import proofs.«140302_j2362232013143_1_alg».proof.Proof.Gen.KernelIdeal.Points
import proofs.«140302_j2362232013143_1_alg».proof.Proof.Gen.KernelIdeal.Frame
import proofs.«140302_j2362232013143_1_alg».proof.Proof.Gen.ReferenceIdeal
import proofs.«140302_j2362232013143_1_alg».proof.Proof.Gen.Pre_finite_inputs
import proofs.«140302_j2362232013143_1_alg».proof.Proof.Gen.KernelIdeal.Value
import proofs.«140302_j2362232013143_1_alg».proof.Proof.Gen.ReferenceIdeal.Run
import proofs.«140302_j2362232013143_1_alg».proof.Proof.Gen.ReferenceIdeal.Read
import proofs.«140302_j2362232013143_1_alg».proof.Proof.Spec
import proofs.«140302_j2362232013143_1_alg».proof.Proof.KernelValue
import proofs.«140302_j2362232013143_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's output of the same arguments. -/
theorem algebraic : Cert.algebraic_KernelIdeal_ReferenceIdeal := by
  intro m ρ m' ρ' _ hagree
  refine ⟨fun c => Cert.Gnn.KernelValue.result m c, Cert.Gnn.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v55_eq, Cert.Gnn.Ref.result_eq_out, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
